-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x56x56 : Shape := ⟨4, ![32, 256, 56, 56]⟩
abbrev S64x256 : Shape := ⟨2, ![64, 256]⟩
abbrev S64 : Shape := ⟨1, ![64]⟩
abbrev S256x64 : Shape := ⟨2, ![256, 64]⟩
abbrev S256 : Shape := ⟨1, ![256]⟩
abbrev S_ : Shape := ⟨0, ![]⟩

class Facts : Prop where
  bcast_S_S32x256x56x56 : S_.BroadcastsInDim S32x256x56x56 (![] : Fin 0 → Fin S32x256x56x56.rank)
  reducesTo_S32x256x56x56_S_d0_1_2_3 : S32x256x56x56.ReducesTo [0, 1, 2, 3] S_
  h_S_ : 0 < S_.numel
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x64 .f32) (main_arg5 : FVec F S256 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S32x256x56x56 .f32) (main_arg1 : FVec F S32x256x56x56 .f32) (main_arg2 : FVec F S64x256 .f32) (main_arg3 : FVec F S64 .f32) (main_arg4 : FVec F S256x64 .f32) (main_arg5 : FVec F S256 .f32) : IVec S_ 1 :=
  let main_v0 : FVec F S32x256x56x56 .f32 := Host.absf main_arg0
  let main_cst : FVec F S_ .f32 := constant S_ .f32 0x7F800000#32
  let main_v1 : FVec F S32x256x56x56 .f32 := broadcastInDim S32x256x56x56 ![] bcast_S_S32x256x56x56 main_cst
  let main_v2 : IVec S32x256x56x56 1 := cmpf .olt main_v0 main_v1
  let main_c : IVec S_ 1 := constantI S_ 1 1#1
  let main_v3 : IVec S_ 1 := (fun x v => Host.reduce IntOp.andi x v reducesTo_S32x256x56x56_S_d0_1_2_3 h_S_) main_v2 main_c
  let main_v4 : FVec F S32x256x56x56 .f32 := Host.absf main_arg1
  let main_cst_0 : FVec F S_ .f32 := constant S_ .f32 0x7F800000#32
  let main_v5 : FVec F S32x256x56x56 .f32 := broadcastInDim S32x256x56x56 ![] bcast_S_S32x256x56x56 main_cst_0
  let main_v6 : IVec S32x256x56x56 1 := cmpf .olt main_v4 main_v5
  let main_c_1 : IVec S_ 1 := constantI S_ 1 1#1
  let main_v7 : IVec S_ 1 := (fun x v => Host.reduce IntOp.andi x v reducesTo_S32x256x56x56_S_d0_1_2_3 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S32x256x56x56 : Shape := ⟨4, ![32, 256, 56, 56]⟩
abbrev S64x256 : Shape := ⟨2, ![64, 256]⟩
abbrev S64 : Shape := ⟨1, ![64]⟩
abbrev S256x64 : Shape := ⟨2, ![256, 64]⟩
abbrev S256 : Shape := ⟨1, ![256]⟩
abbrev S8192x56x56 : Shape := ⟨3, ![8192, 56, 56]⟩
abbrev S1x64 : Shape := ⟨2, ![1, 64]⟩
abbrev S1x256 : Shape := ⟨2, ![1, 256]⟩
abbrev S256x56x56 : Shape := ⟨3, ![256, 56, 56]⟩
abbrev S256x1x1 : Shape := ⟨3, ![256, 1, 1]⟩

abbrev nBuf : Space → Nat
  | .hbm => 14
  | .vmem => 10
  | .smem => 0
  | _ => 0

abbrev bufTy : (tb : Table) → Fin (tcTables nBuf tb) → BufTy
  | .hbm, ⟨0, _⟩ => ⟨S32x256x56x56, .f32⟩
  | .hbm, ⟨1, _⟩ => ⟨S32x256x56x56, .f32⟩
  | .hbm, ⟨2, _⟩ => ⟨S64x256, .f32⟩
  | .hbm, ⟨3, _⟩ => ⟨S64, .f32⟩
  | .hbm, ⟨4, _⟩ => ⟨S256x64, .f32⟩
  | .hbm, ⟨5, _⟩ => ⟨S256, .f32⟩
  | .hbm, ⟨6, _⟩ => ⟨S8192x56x56, .f32⟩
  | .hbm, ⟨7, _⟩ => ⟨S8192x56x56, .f32⟩
  | .hbm, ⟨8, _⟩ => ⟨S256x64, .f32⟩
  | .hbm, ⟨9, _⟩ => ⟨S64x256, .f32⟩
  | .hbm, ⟨10, _⟩ => ⟨S1x64, .f32⟩
  | .hbm, ⟨11, _⟩ => ⟨S1x256, .f32⟩
  | .hbm, ⟨12, _⟩ => ⟨S8192x56x56, .f32⟩
  | .hbm, ⟨13, _⟩ => ⟨S32x256x56x56, .f32⟩
  | .local _ .vmem, ⟨0, _⟩ => ⟨S256x56x56, .f32⟩
  | .local _ .vmem, ⟨1, _⟩ => ⟨S256x56x56, .f32⟩
  | .local _ .vmem, ⟨2, _⟩ => ⟨S256x56x56, .f32⟩
  | .local _ .vmem, ⟨3, _⟩ => ⟨S256x56x56, .f32⟩
  | .local _ .vmem, ⟨4, _⟩ => ⟨S256x64, .f32⟩
  | .local _ .vmem, ⟨5, _⟩ => ⟨S1x64, .f32⟩
  | .local _ .vmem, ⟨6, _⟩ => ⟨S64x256, .f32⟩
  | .local _ .vmem, ⟨7, _⟩ => ⟨S1x256, .f32⟩
  | .local _ .vmem, ⟨8, _⟩ => ⟨S256x56x56, .f32⟩
  | .local _ .vmem, ⟨9, _⟩ => ⟨S256x56x56, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x56x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x56x56 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S32x256x56x56_S8192x56x56 : S32x256x56x56.ShapeCasts S8192x56x56
  transposes_S64x256_S256x64_1_0 : S64x256.Transposes [1, 0] S256x64
  transposes_S256x64_S64x256_1_0 : S256x64.Transposes [1, 0] S64x256
  shapeCasts_S64_S1x64 : S64.ShapeCasts S1x64
  shapeCasts_S256_S1x256 : S256.ShapeCasts S1x256
  inb_S256x56x56_S256x56x56_0_0_0 : ∀ a, (![0, 0, 0] : Fin 3 → Nat) a + S256x56x56.size a ≤ S256x56x56.size a
  h_S256x56x56 : 0 < S256x56x56.numel
  shapeCasts_S256x56x56_S256x56x56 : S256x56x56.ShapeCasts S256x56x56
  reduces_S256x56x56_S256 : S256x56x56.Reduces [1, 2] S256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S256x1x1 : S1x256.ShapeCasts S256x1x1
  broadcasts_S256x1x1_S256x56x56 : S256x1x1.Broadcasts S256x56x56
  shapeCasts_S8192x56x56_S32x256x56x56 : S8192x56x56.ShapeCasts S32x256x56x56
  dot_S1x256_S256x64_S1x64_1_0_0_1_n_n_wf : DotDims.WF S1x256 S256x64 S1x64 [1] [0] [0] [1] [] []
  dot_S1x64_S64x256_S1x256_1_0_0_1_n_n_wf : DotDims.WF S1x64 S64x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x56x56.size a ≤ S8192x56x56.size a
  hwx0_0 : ∀ i : grid0.Coords, EltTy.bits .f32 = 32 ∨ (Rect.block (s := S8192x56x56) S256x56x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x56x56.size a ≤ S8192x56x56.size a
  hwx0_1 : ∀ i : grid0.Coords, EltTy.bits .f32 = 32 ∨ (Rect.block (s := S8192x56x56) S256x56x56.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .f32 = 32 ∨ (Rect.block (s := S64x256) S64x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x56x56.size a ≤ S8192x56x56.size a
  hwx0_6 : ∀ i : grid0.Coords, EltTy.bits .f32 = 32 ∨ (Rect.block (s := S8192x56x56) S256x56x56.size (cc0_transform_6 i) (hinb0_6 i)).WholeWords (EltTy.packing .f32)

variable [Facts₀]

def dot_S1x256_S256x64_S1x64_1_0_0_1_n_n : DotDims S1x256 S256x64 S1x64 where
  lhsContracting := [1]
  rhsContracting := [0]
  lhsNonContracting := [0]
  rhsNonContracting := [1]
  lhsBatch := []
  rhsBatch := []
  wf := dot_S1x256_S256x64_S1x64_1_0_0_1_n_n_wf
def dot_S1x64_S64x256_S1x256_1_0_0_1_n_n : DotDims S1x64 S64x256 S1x256 where
  lhsContracting := [1]
  rhsContracting := [0]
  lhsNonContracting := [0]
  rhsNonContracting := [1]
  lhsBatch := []
  rhsBatch := []
  wf := dot_S1x64_S64x256_S1x256_1_0_0_1_n_n_wf

abbrev win0_0 : Pipeline.Window sig grid0 :=
  Pipeline.Window.ofSpec (Memref.whole main_v0) S256x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x56x56.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S256x56x56.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x256x56x56 : Shape := ⟨4, ![32, 256, 56, 56]⟩
abbrev S64x256 : Shape := ⟨2, ![64, 256]⟩
abbrev S64 : Shape := ⟨1, ![64]⟩
abbrev S256x64 : Shape := ⟨2, ![256, 64]⟩
abbrev S256 : Shape := ⟨1, ![256]⟩
abbrev S8192x3136 : Shape := ⟨2, ![8192, 3136]⟩
abbrev S_ : Shape := ⟨0, ![]⟩
abbrev S8192x3200 : Shape := ⟨2, ![8192, 3200]⟩
abbrev S8192x1 : Shape := ⟨2, ![8192, 1]⟩
abbrev S256x640 : Shape := ⟨2, ![256, 640]⟩
abbrev S256x1 : Shape := ⟨2, ![256, 1]⟩
abbrev S8192 : Shape := ⟨1, ![8192]⟩
abbrev S32x256 : Shape := ⟨2, ![32, 256]⟩
abbrev S32x64 : Shape := ⟨2, ![32, 64]⟩
abbrev S1x64 : Shape := ⟨2, ![1, 64]⟩
abbrev S1x256 : Shape := ⟨2, ![1, 256]⟩

abbrev nBuf : Space → Nat
  | .hbm => 51
  | .vmem => 10
  | .smem => 0
  | _ => 0

abbrev bufTy : (tb : Table) → Fin (tcTables nBuf tb) → BufTy
  | .hbm, ⟨0, _⟩ => ⟨S32x256x56x56, .f32⟩
  | .hbm, ⟨1, _⟩ => ⟨S32x256x56x56, .f32⟩
  | .hbm, ⟨2, _⟩ => ⟨S64x256, .f32⟩
  | .hbm, ⟨3, _⟩ => ⟨S64, .f32⟩
  | .hbm, ⟨4, _⟩ => ⟨S256x64, .f32⟩
  | .hbm, ⟨5, _⟩ => ⟨S256, .f32⟩
  | .hbm, ⟨6, _⟩ => ⟨S8192x3136, .f32⟩
  | .hbm, ⟨7, _⟩ => ⟨S_, .i32⟩
  | .hbm, ⟨8, _⟩ => ⟨S_, .f32⟩
  | .hbm, ⟨9, _⟩ => ⟨S8192x3200, .f32⟩
  | .hbm, ⟨10, _⟩ => ⟨S8192x1, .f32⟩
  | .hbm, ⟨11, _⟩ => ⟨S8192, .f32⟩
  | .hbm, ⟨12, _⟩ => ⟨S32x256, .f32⟩
  | .hbm, ⟨13, _⟩ => ⟨S_, .f32⟩
  | .hbm, ⟨14, _⟩ => ⟨S32x256, .f32⟩
  | .hbm, ⟨15, _⟩ => ⟨S32x256, .f32⟩
  | .hbm, ⟨16, _⟩ => ⟨S256x64, .f32⟩
  | .hbm, ⟨17, _⟩ => ⟨S32x64, .f32⟩
  | .hbm, ⟨18, _⟩ => ⟨S1x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S_, .f32⟩
  | .hbm, ⟨24, _⟩ => ⟨S32x64, .f32⟩
  | .hbm, ⟨25, _⟩ => ⟨S32x64, .f32⟩
  | .hbm, ⟨26, _⟩ => ⟨S_, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S64x256, .f32⟩
  | .hbm, ⟨31, _⟩ => ⟨S32x256, .f32⟩
  | .hbm, ⟨32, _⟩ => ⟨S1x256, .f32⟩
  | .hbm, ⟨33, _⟩ => ⟨S32x256, .f32⟩
  | .hbm, ⟨34, _⟩ => ⟨S32x256, .f32⟩
  | .hbm, ⟨35, _⟩ => ⟨S32x256, .f32⟩
  | .hbm, ⟨36, _⟩ => ⟨S32x256, .f32⟩
  | .hbm, ⟨37, _⟩ => ⟨S_, .f32⟩
  | .hbm, ⟨38, _⟩ => ⟨S32x256, .f32⟩
  | .hbm, ⟨39, _⟩ => ⟨S32x256, .f32⟩
  | .hbm, ⟨40, _⟩ => ⟨S_, .f32⟩
  | .hbm, ⟨41, _⟩ => ⟨S32x256, .f32⟩
  | .hbm, ⟨42, _⟩ => ⟨S32x256, .f32⟩
  | .hbm, ⟨43, _⟩ => ⟨S8192x3136, .f32⟩
  | .hbm, ⟨44, _⟩ => ⟨S_, .i32⟩
  | .hbm, ⟨45, _⟩ => ⟨S_, .f32⟩
  | .hbm, ⟨46, _⟩ => ⟨S8192x3200, .f32⟩
  | .hbm, ⟨47, _⟩ => ⟨S8192x1, .f32⟩
  | .hbm, ⟨48, _⟩ => ⟨S8192x3200, .f32⟩
  | .hbm, ⟨49, _⟩ => ⟨S8192x3136, .f32⟩
  | .hbm, ⟨50, _⟩ => ⟨S32x256x56x56, .f32⟩
  | .local _ .vmem, ⟨0, _⟩ => ⟨S256x640, .f32⟩
  | .local _ .vmem, ⟨1, _⟩ => ⟨S256x640, .f32⟩
  | .local _ .vmem, ⟨2, _⟩ => ⟨S256x1, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_call1_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![32, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![32, 5], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x640 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x640 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S32x256x56x56_S8192x3136 : S32x256x56x56.ShapeCasts S8192x3136
  pads_S8192x3136_S8192x3200_000_0640 : S8192x3136.Pads (![0, 0] : Fin 2 → Nat) ![0, 64] ![0, 0] S8192x3200
  h_S_ : 0 < S_.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x640_S256x640_0_0 : ∀ a, (![0, 0] : Fin 2 → Nat) a + S256x640.size a ≤ S256x640.size a
  h_S256x640 : 0 < S256x640.numel
  shapeCasts_S256x640_S256x640 : S256x640.ShapeCasts S256x640
  reduces_S256x640_S256 : S256x640.Reduces [1] S256
  shapeCasts_S256_S256x1 : S256.ShapeCasts S256x1
  shapeCasts_S8192x1_S8192 : S8192x1.ShapeCasts S8192
  shapeCasts_S8192_S32x256 : S8192.ShapeCasts S32x256
  bcast_S_S32x256 : S_.BroadcastsInDim S32x256 (![] : Fin 0 → Fin S32x256.rank)
  transposes_S64x256_S256x64_1_0 : S64x256.Transposes [1, 0] S256x64
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  bcast_S_S32x64 : S_.BroadcastsInDim S32x64 (![] : Fin 0 → Fin S32x64.rank)
  transposes_S256x64_S64x256_1_0 : S256x64.Transposes [1, 0] S64x256
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  shapeCasts_S32x256_S8192x1 : S32x256.ShapeCasts S8192x1
  broadcasts_S256x1_S256x640 : S256x1.Broadcasts S256x640
  slices_S8192x3200_S8192x3136_0_0 : S8192x3200.Slices ![0, 0] S8192x3136
  shapeCasts_S8192x3136_S32x256x56x56 : S8192x3136.ShapeCasts S32x256x56x56
  dot_S32x256_S256x64_S32x64_1_0_0_1_n_n_wf : DotDims.WF S32x256 S256x64 S32x64 [1] [0] [0] [1] [] []
  dot_S32x64_S64x256_S32x256_1_0_0_1_n_n_wf : DotDims.WF S32x64 S64x256 S32x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x640.size a ≤ S8192x3200.size a
  hwx0_0 : ∀ i : grid0.Coords, EltTy.bits .f32 = 32 ∨ (Rect.block (s := S8192x3200) S256x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8192x1.size a
  hwx0_1 : ∀ i : grid0.Coords, EltTy.bits .f32 = 32 ∨ (Rect.block (s := S8192x1) S256x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1.size a ≤ S8192x1.size a
  hwx1_0 : ∀ i : grid1.Coords, EltTy.bits .f32 = 32 ∨ (Rect.block (s := S8192x1) S256x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x640.size a ≤ S8192x3200.size a
  hwx1_1 : ∀ i : grid1.Coords, EltTy.bits .f32 = 32 ∨ (Rect.block (s := S8192x3200) S256x640.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x640.size a ≤ S8192x3200.size a
  hwx1_2 : ∀ i : grid1.Coords, EltTy.bits .f32 = 32 ∨ (Rect.block (s := S8192x3200) S256x640.size (cc1_transform_2 i) (hinb1_2 i)).WholeWords (EltTy.packing .f32)

variable [Facts₀]

def dot_S32x256_S256x64_S32x64_1_0_0_1_n_n : DotDims S32x256 S256x64 S32x64 where
  lhsContracting := [1]
  rhsContracting := [0]
  lhsNonContracting := [0]
  rhsNonContracting := [1]
  lhsBatch := []
  rhsBatch := []
  wf := dot_S32x256_S256x64_S32x64_1_0_0_1_n_n_wf
def dot_S32x64_S64x256_S32x256_1_0_0_1_n_n : DotDims S32x64 S64x256 S32x256 where
  lhsContracting := [1]
  rhsContracting := [0]
  lhsNonContracting := [0]
  rhsNonContracting := [1]
  lhsBatch := []
  rhsBatch := []
  wf := dot_S32x64_S64x256_S32x256_1_0_0_1_n_n_wf

abbrev win0_0 : Pipeline.Window sig grid0 :=
  Pipeline.Window.ofSpec (Memref.whole main_v1) S256x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v32) S256x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S256x640.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S256x640.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== Proof.Excite.lean ====
/-
  The squeeze-and-excite gate, written once over the extended reals as a function of the six argument arrays:
  for batch element b and channel c,

    pooled b c  = (∑ h w, x[b, c, h, w]) · k            (k the mean's scale, one fixed number)
    hidden b j  = (∑ c, pooled b c · w1[j, c]) + b1[j]
    excite b c  = (∑ j, swish (hidden b j) · w2[c, j]) + b2[c],   swish v = v · σ(v)
    result[b, c, h, w] = σ(excite b c) · z[b, c, h, w],           σ v = 1 / (1 + e^(-v)).

  Also the same gate for ONE batch element from that element's slab and the transposed weights (what one grid
  point of a kernel that works a batch element at a time computes), and the two re-indexings that join the forms:
  a sum over a zero-padded row of 3200 entries is the sum over the 56 × 56 positions it was flattened from.
-/
import Idealize.ShloMosaic.PureOps.Ideal
import Idealize.ShloMosaic.PureOps.Ideal.Laws
import Idealize.ShloMosaic.Lib.ValueIdx

noncomputable section

namespace Cert.Excite

open Idealize.ShloMosaic Idealize.ShloMosaic.ValueIdx

/-- The scale of the mean: the single-precision number nearest 1/3136, as an exact real. -/
def scale : EReal := Ideal.ofBits .f32 0x39A72F05#32

/-- v · σ(v). -/
def swish (v : EReal) : EReal := v * Ideal.logistic v

/-! ## The whole arrays -/

/-- The mean (up to the fixed scale) of channel c of batch element b over its 56 × 56 positions. -/
def pooled (x : (⟨4, ![32, 256, 56, 56]⟩ : Shape).Idx → EReal) (b : Fin 32) (c : Fin 256) : EReal :=
  (∑ h : Fin 56, ∑ w : Fin 56, x (ix4 b c h w)) * scale

/-- The first dense layer. -/
def hidden (x : (⟨4, ![32, 256, 56, 56]⟩ : Shape).Idx → EReal) (w1 : (⟨2, ![64, 256]⟩ : Shape).Idx → EReal)
    (b1 : (⟨1, ![64]⟩ : Shape).Idx → EReal) (b : Fin 32) (j : Fin 64) : EReal :=
  (∑ c : Fin 256, pooled x b c * w1 (ix2 j c)) + b1 (ix1 j)

/-- The second dense layer, over the swish of the first. -/
def excite (x : (⟨4, ![32, 256, 56, 56]⟩ : Shape).Idx → EReal) (w1 : (⟨2, ![64, 256]⟩ : Shape).Idx → EReal)
    (b1 : (⟨1, ![64]⟩ : Shape).Idx → EReal) (w2 : (⟨2, ![256, 64]⟩ : Shape).Idx → EReal)
    (b2 : (⟨1, ![256]⟩ : Shape).Idx → EReal) (b : Fin 32) (c : Fin 256) : EReal :=
  (∑ j : Fin 64, swish (hidden x w1 b1 b j) * w2 (ix2 c j)) + b2 (ix1 c)

/-- The gate of channel c of batch element b. -/
def gate (x : (⟨4, ![32, 256, 56, 56]⟩ : Shape).Idx → EReal) (w1 : (⟨2, ![64, 256]⟩ : Shape).Idx → EReal)
    (b1 : (⟨1, ![64]⟩ : Shape).Idx → EReal) (w2 : (⟨2, ![256, 64]⟩ : Shape).Idx → EReal)
    (b2 : (⟨1, ![256]⟩ : Shape).Idx → EReal) (b : Fin 32) (c : Fin 256) : EReal :=
  Ideal.logistic (excite x w1 b1 w2 b2 b c)

/-- The gated activations. -/
def result (x z : (⟨4, ![32, 256, 56, 56]⟩ : Shape).Idx → EReal) (w1 : (⟨2, ![64, 256]⟩ : Shape).Idx → EReal)
    (b1 : (⟨1, ![64]⟩ : Shape).Idx → EReal) (w2 : (⟨2, ![256, 64]⟩ : Shape).Idx → EReal)
    (b2 : (⟨1, ![256]⟩ : Shape).Idx → EReal) : (⟨4, ![32, 256, 56, 56]⟩ : Shape).Idx → EReal :=
  fun i => gate x w1 b1 w2 b2 (i 0) (i 1) * z i

theorem result_apply (x z : (⟨4, ![32, 256, 56, 56]⟩ : Shape).Idx → EReal) (w1 : (⟨2, ![64, 256]⟩ : Shape).Idx → EReal)
    (b1 : (⟨1, ![64]⟩ : Shape).Idx → EReal) (w2 : (⟨2, ![256, 64]⟩ : Shape).Idx → EReal)
    (b2 : (⟨1, ![256]⟩ : Shape).Idx → EReal) (b : Fin 32) (c : Fin 256) (h w : Fin 56) :
    result x z w1 b1 w2 b2 (ix4 b c h w) = gate x w1 b1 w2 b2 b c * z (ix4 b c h w) := rfl

/-! ## One batch element, from its slab and the transposed weights -/

/-- The gate of channel c from one batch element's slab xb[c, h, w], the weights transposed (w1t[c, j] = w1[j, c],
    w2t[j, c] = w2[c, j]) and the biases as one-row matrices. -/
def slabGate (xb : (⟨3, ![256, 56, 56]⟩ : Shape).Idx → EReal) (w1t : (⟨2, ![256, 64]⟩ : Shape).Idx → EReal)
    (b1r : (⟨2, ![1, 64]⟩ : Shape).Idx → EReal) (w2t : (⟨2, ![64, 256]⟩ : Shape).Idx → EReal)
    (b2r : (⟨2, ![1, 256]⟩ : Shape).Idx → EReal) (c : Fin 256) : EReal :=
  Ideal.logistic ((∑ j : Fin 64,
      swish ((∑ c' : Fin 256, ((∑ h : Fin 56, ∑ w : Fin 56, xb (ix3 c' h w)) * scale) * w1t (ix2 c' j)) + b1r (ix2 0 j))
        * w2t (ix2 j c)) + b2r (ix2 0 c))

/-- The slab form is the whole-array form, when the slab is batch element b and the weights are the transposes. -/
theorem slabGate_eq (x : (⟨4, ![32, 256, 56, 56]⟩ : Shape).Idx → EReal) (w1 : (⟨2, ![64, 256]⟩ : Shape).Idx → EReal)
    (b1 : (⟨1, ![64]⟩ : Shape).Idx → EReal) (w2 : (⟨2, ![256, 64]⟩ : Shape).Idx → EReal)
    (b2 : (⟨1, ![256]⟩ : Shape).Idx → EReal) (b : Fin 32)
    (xb : (⟨3, ![256, 56, 56]⟩ : Shape).Idx → EReal) (w1t : (⟨2, ![256, 64]⟩ : Shape).Idx → EReal)
    (b1r : (⟨2, ![1, 64]⟩ : Shape).Idx → EReal) (w2t : (⟨2, ![64, 256]⟩ : Shape).Idx → EReal)
    (b2r : (⟨2, ![1, 256]⟩ : Shape).Idx → EReal)
    (hx : ∀ (c : Fin 256) (h w : Fin 56), xb (ix3 c h w) = x (ix4 b c h w))
    (hw1 : ∀ (c : Fin 256) (j : Fin 64), w1t (ix2 c j) = w1 (ix2 j c))
    (hb1 : ∀ j : Fin 64, b1r (ix2 0 j) = b1 (ix1 j))
    (hw2 : ∀ (j : Fin 64) (c : Fin 256), w2t (ix2 j c) = w2 (ix2 c j))
    (hb2 : ∀ c : Fin 256, b2r (ix2 0 c) = b2 (ix1 c)) (c : Fin 256) :
    slabGate xb w1t b1r w2t b2r c = gate x w1 b1 w2 b2 b c := by
  unfold slabGate gate excite hidden pooled
  simp only [hx, hw1, hb1, hw2, hb2]

/-! ## A zero-padded flattened row sums to the sum over the positions -/

/-- Channel c of batch element b as a row of the 8192-row matrices the activations are flattened to. -/
def row (b : Fin 32) (c : Fin 256) : Fin 8192 := ⟨256 * b.val + c.val, by have := b.isLt; have := c.isLt; omega⟩

/-- Position (h, w) of a 56 × 56 map, flattened row-major into a row of 3200 entries (the last 64 are padding). -/
def flat (h w : Fin 56) : Fin 3200 := ⟨56 * h.val + w.val, by have := h.isLt; have := w.isLt; omega⟩

/-- If a row of 3200 entries holds the 56 × 56 map f at the flattened positions and zero from entry 3136 on, its sum is
    the sum of f. -/
theorem sum_padded_row (g : Fin 3200 → EReal) (f : Fin 56 → Fin 56 → EReal)
    (hin : ∀ h w, g (flat h w) = f h w) (hout : ∀ k : Fin 3200, 3136 ≤ k.val → g k = 0) :
    ∑ k : Fin 3200, g k = ∑ h : Fin 56, ∑ w : Fin 56, f h w := by
  -- the last 64 entries are zero; the first 3136 = 56 · 56 are the positions, row by row
  show ∑ k : Fin (56 * 56 + 64), g k = _
  rw [Fin.sum_univ_add]
  have hz : ∑ i : Fin 64, g (Fin.natAdd (56 * 56) i) = 0 :=
    Finset.sum_eq_zero fun i _ => hout _ (by show 3136 ≤ 56 * 56 + i.val; omega)
  rw [hz, add_zero, ← Equiv.sum_comp finProdFinEquiv, Fintype.sum_prod_type]
  refine Finset.sum_congr rfl fun h _ => Finset.sum_congr rfl fun w _ => ?_
  rw [← hin h w]
  congr 1
  apply Fin.ext
  show w.val + 56 * h.val = 56 * h.val + w.val
  omega

end Cert.Excite

end
-- ==== Proof.KernelBody.lean ====
/-
  What the fused kernel's body computes, read at one position of its output block: the gate of the position's channel
  (from the batch element's slab, the transposed weights and the one-row biases, as the body loads them) times the
  other slab's entry there.
-/
import proofs.«148552_g2000302560019453_pallasbulk_905_5_alg».proof.Proof.Gen.KernelIdeal.Skeleton
import proofs.«148552_g2000302560019453_pallasbulk_905_5_alg».proof.Proof.Excite
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Body

open Cert.KernelIdeal Cert.KernelIdeal.Gen

/-- The gate row [1, 256] laid out as a column [256, 1, 1]: channel c of the column is entry c of the row. -/
theorem column_apply (v : FVec Ideal S1x256 .f32) (c : Fin 256) :
    shapeCast S256x1x1 v shapeCasts_S1x256_S256x1x1 (ix3 c (0 : Fin 1) (0 : Fin 1)) = v (ix2 (0 : Fin 1) c) :=
  shapeCast_apply v shapeCasts_S1x256_S256x1x1 _ _ (by
    rw [Shape.rowMajor_val_two, Shape.rowMajor_val_three]
    show 0 * 256 + c.val = (c.val * 1 + 0) * 1 + 0
    omega)

/-- The column [256, 1, 1] spread over the 56 × 56 positions: every position of channel c reads the column at c. -/
theorem spread_apply (v : FVec Ideal S256x1x1 .f32) (c : Fin 256) (h w : Fin 56) :
    broadcastTo S256x56x56 v broadcasts_S256x1x1_S256x56x56 (ix3 c h w) = v (ix3 c (0 : Fin 1) (0 : Fin 1)) := by
  refine broadcastTo_apply v broadcasts_S256x1x1_S256x56x56 (ix3 c h w) (ix3 c (0 : Fin 1) (0 : Fin 1)) fun ax => ?_
  match ax with
  | ⟨0, _⟩ => rfl
  | ⟨1, _⟩ => rfl
  | ⟨2, _⟩ => rfl

/-- The pooled vector [256] as a one-row matrix [1, 256]. -/
theorem row_apply (v : FVec Ideal S256 .f32) (k : Fin 256) :
    shapeCast S1x256 v shapeCasts_S256_S1x256 (ix2 (0 : Fin 1) k) = v (ix1 k) :=
  shapeCast_a_1a_apply v shapeCasts_S256_S1x256 0 k

/-- The lane sum over the two position axes, at channel c: the double sum of the slab over the 56 × 56 positions of c. -/
theorem pooledSum_apply (hr : S256x56x56.Reduces [1, 2] S256) (src : FVec Ideal S256x56x56 .f32) (c : Fin 256) :
    Ideal.reduceAdd hr src (ix1 c) = ∑ h : Fin 56, ∑ w : Fin 56, src (ix3 c h w) := by
  unfold Ideal.reduceAdd
  have hdrop : ∀ i : S256x56x56.Idx, hr.drop i = ix1 c ↔ (i 0).val = c.val := fun i => by
    constructor
    · intro e
      have := congrArg (fun j : S256.Idx => (j 0).val) e
      simpa [hr.drop_apply_val_of_eq i 0 0] using this
    · intro e
      funext b
      match b with
      | ⟨0, _⟩ => exact Fin.ext ((hr.drop_apply_val_of_eq i 0 0).trans e)
  rw [← Fintype.sum_prod_type' (f := fun (h : Fin 56) (w : Fin 56) => src (ix3 c h w))]
  refine Finset.sum_bij' (fun i _ => ((i 1 : Fin 56), (i 2 : Fin 56))) (fun p _ => ix3 c p.1 p.2)
    (fun _ _ => Finset.mem_univ _) (fun p _ => ?_) (fun i hi => ?_) (fun p _ => rfl) (fun i hi => ?_)
  · exact Finset.mem_filter.mpr ⟨Finset.mem_univ _, (hdrop _).mpr rfl⟩
  · have e := (hdrop i).mp (Finset.mem_filter.mp hi).2
    funext b
    match b with
    | ⟨0, _⟩ => exact Fin.ext e.symm
    | ⟨1, _⟩ => rfl
    | ⟨2, _⟩ => rfl
  · have e := (hdrop i).mp (Finset.mem_filter.mp hi).2
    refine congrArg src ?_
    funext b
    match b with
    | ⟨0, _⟩ => exact Fin.ext e
    | ⟨1, _⟩ => rfl
    | ⟨2, _⟩ => rfl

/-! ## The first product: the pooled row [1, 256] times w1ᵀ [256, 64] -/

/-- The left operand's row coordinate is the result's. -/
theorem lhs_dense1_0 (i : S1x64.Idx) (q : dot_S1x256_S256x64_S1x64_1_0_0_1_n_n.contr.Idx) :
    (dot_S1x256_S256x64_S1x64_1_0_0_1_n_n.lhsIdx i q 0).val = (i 0).val := by
  unfold DotDims.lhsIdx
  rw [dif_neg (show ¬(0 : Fin S1x256.rank) ∈ dot_S1x256_S256x64_S1x64_1_0_0_1_n_n.lhsBatch by decide),
    dif_pos (show (0 : Fin S1x256.rank) ∈ dot_S1x256_S256x64_S1x64_1_0_0_1_n_n.lhsNonContracting by decide)]
  rfl

/-- The left operand's column coordinate is the contracted one. -/
theorem lhs_dense1_1 (i : S1x64.Idx) (q : dot_S1x256_S256x64_S1x64_1_0_0_1_n_n.contr.Idx) :
    (dot_S1x256_S256x64_S1x64_1_0_0_1_n_n.lhsIdx i q 1).val = (q ⟨0, by decide⟩).val :=
  dot_S1x256_S256x64_S1x64_1_0_0_1_n_n.lhsIdx_val_of_single rfl i q

/-- The right operand's row coordinate is the contracted one. -/
theorem rhs_dense1_0 (i : S1x64.Idx) (q : dot_S1x256_S256x64_S1x64_1_0_0_1_n_n.contr.Idx) :
    (dot_S1x256_S256x64_S1x64_1_0_0_1_n_n.rhsIdx i q 0).val = (q ⟨0, by decide⟩).val :=
  dot_S1x256_S256x64_S1x64_1_0_0_1_n_n.rhsIdx_val_of_single rfl i q

/-- The right operand's column coordinate is the result's. -/
theorem rhs_dense1_1 (i : S1x64.Idx) (q : dot_S1x256_S256x64_S1x64_1_0_0_1_n_n.contr.Idx) :
    (dot_S1x256_S256x64_S1x64_1_0_0_1_n_n.rhsIdx i q 1).val = (i 1).val := by
  unfold DotDims.rhsIdx
  rw [dif_neg (show ¬(1 : Fin S256x64.rank) ∈ dot_S1x256_S256x64_S1x64_1_0_0_1_n_n.rhsBatch by decide),
    dif_pos (show (1 : Fin S256x64.rank) ∈ dot_S1x256_S256x64_S1x64_1_0_0_1_n_n.rhsNonContracting by decide)]
  rfl

/-- The first product into the zero accumulator, at column j: the sum over the 256 channels. -/
theorem dense1_apply (lhs : FVec Ideal S1x256 .f32) (rhs : FVec Ideal S256x64 .f32) (j : Fin 64) :
    matmul dot_S1x256_S256x64_S1x64_1_0_0_1_n_n none lhs rhs (constant (F := Ideal) S1x64 .f32 0x00000000#32) (ix2 (0 : Fin 1) j)
      = ∑ k : Fin 256, lhs (ix2 (0 : Fin 1) k) * rhs (ix2 k j) := by
  simp only [matmul]
  rw [Ideal.matmul_constant_zero_apply,
    ← Equiv.sum_comp (contrEquiv1 dot_S1x256_S256x64_S1x64_1_0_0_1_n_n 256 rfl rfl).symm]
  refine Finset.sum_congr rfl fun k _ => ?_
  have hk := contrEquiv1_symm_val dot_S1x256_S256x64_S1x64_1_0_0_1_n_n 256 rfl rfl k
  have el : dot_S1x256_S256x64_S1x64_1_0_0_1_n_n.lhsIdx (ix2 (0 : Fin 1) j)
      ((contrEquiv1 dot_S1x256_S256x64_S1x64_1_0_0_1_n_n 256 rfl rfl).symm k) = ix2 (0 : Fin 1) k :=
    funext fun a => Fin.ext (by
      match a with
      | ⟨0, _⟩ => exact lhs_dense1_0 _ _
      | ⟨1, _⟩ => exact (lhs_dense1_1 _ _).trans hk)
  have er : dot_S1x256_S256x64_S1x64_1_0_0_1_n_n.rhsIdx (ix2 (0 : Fin 1) j)
      ((contrEquiv1 dot_S1x256_S256x64_S1x64_1_0_0_1_n_n 256 rfl rfl).symm k) = ix2 k j :=
    funext fun a => Fin.ext (by
      match a with
      | ⟨0, _⟩ => exact (rhs_dense1_0 _ _).trans hk
      | ⟨1, _⟩ => exact rhs_dense1_1 _ _)
  rw [el, er]

/-! ## The second product: the swish row [1, 64] times w2ᵀ [64, 256] -/

/-- The left operand's row coordinate is the result's. -/
theorem lhs_dense2_0 (i : S1x256.Idx) (q : dot_S1x64_S64x256_S1x256_1_0_0_1_n_n.contr.Idx) :
    (dot_S1x64_S64x256_S1x256_1_0_0_1_n_n.lhsIdx i q 0).val = (i 0).val := by
  unfold DotDims.lhsIdx
  rw [dif_neg (show ¬(0 : Fin S1x64.rank) ∈ dot_S1x64_S64x256_S1x256_1_0_0_1_n_n.lhsBatch by decide),
    dif_pos (show (0 : Fin S1x64.rank) ∈ dot_S1x64_S64x256_S1x256_1_0_0_1_n_n.lhsNonContracting by decide)]
  rfl

/-- The left operand's column coordinate is the contracted one. -/
theorem lhs_dense2_1 (i : S1x256.Idx) (q : dot_S1x64_S64x256_S1x256_1_0_0_1_n_n.contr.Idx) :
    (dot_S1x64_S64x256_S1x256_1_0_0_1_n_n.lhsIdx i q 1).val = (q ⟨0, by decide⟩).val :=
  dot_S1x64_S64x256_S1x256_1_0_0_1_n_n.lhsIdx_val_of_single rfl i q

/-- The right operand's row coordinate is the contracted one. -/
theorem rhs_dense2_0 (i : S1x256.Idx) (q : dot_S1x64_S64x256_S1x256_1_0_0_1_n_n.contr.Idx) :
    (dot_S1x64_S64x256_S1x256_1_0_0_1_n_n.rhsIdx i q 0).val = (q ⟨0, by decide⟩).val :=
  dot_S1x64_S64x256_S1x256_1_0_0_1_n_n.rhsIdx_val_of_single rfl i q

/-- The right operand's column coordinate is the result's. -/
theorem rhs_dense2_1 (i : S1x256.Idx) (q : dot_S1x64_S64x256_S1x256_1_0_0_1_n_n.contr.Idx) :
    (dot_S1x64_S64x256_S1x256_1_0_0_1_n_n.rhsIdx i q 1).val = (i 1).val := by
  unfold DotDims.rhsIdx
  rw [dif_neg (show ¬(1 : Fin S64x256.rank) ∈ dot_S1x64_S64x256_S1x256_1_0_0_1_n_n.rhsBatch by decide),
    dif_pos (show (1 : Fin S64x256.rank) ∈ dot_S1x64_S64x256_S1x256_1_0_0_1_n_n.rhsNonContracting by decide)]
  rfl

/-- The second product into the zero accumulator, at channel c: the sum over the 64 hidden units. -/
theorem dense2_apply (lhs : FVec Ideal S1x64 .f32) (rhs : FVec Ideal S64x256 .f32) (c : Fin 256) :
    matmul dot_S1x64_S64x256_S1x256_1_0_0_1_n_n none lhs rhs (constant (F := Ideal) S1x256 .f32 0x00000000#32) (ix2 (0 : Fin 1) c)
      = ∑ k : Fin 64, lhs (ix2 (0 : Fin 1) k) * rhs (ix2 k c) := by
  simp only [matmul]
  rw [Ideal.matmul_constant_zero_apply,
    ← Equiv.sum_comp (contrEquiv1 dot_S1x64_S64x256_S1x256_1_0_0_1_n_n 64 rfl rfl).symm]
  refine Finset.sum_congr rfl fun k _ => ?_
  have hk := contrEquiv1_symm_val dot_S1x64_S64x256_S1x256_1_0_0_1_n_n 64 rfl rfl k
  have el : dot_S1x64_S64x256_S1x256_1_0_0_1_n_n.lhsIdx (ix2 (0 : Fin 1) c)
      ((contrEquiv1 dot_S1x64_S64x256_S1x256_1_0_0_1_n_n 64 rfl rfl).symm k) = ix2 (0 : Fin 1) k :=
    funext fun a => Fin.ext (by
      match a with
      | ⟨0, _⟩ => exact lhs_dense2_0 _ _
      | ⟨1, _⟩ => exact (lhs_dense2_1 _ _).trans hk)
  have er : dot_S1x64_S64x256_S1x256_1_0_0_1_n_n.rhsIdx (ix2 (0 : Fin 1) c)
      ((contrEquiv1 dot_S1x64_S64x256_S1x256_1_0_0_1_n_n 64 rfl rfl).symm k) = ix2 k c :=
    funext fun a => Fin.ext (by
      match a with
      | ⟨0, _⟩ => exact (rhs_dense2_0 _ _).trans hk
      | ⟨1, _⟩ => exact rhs_dense2_1 _ _)
  rw [el, er]

/-! ## The body's stages, named -/

/-- The pooled row: the lane sums of the slab times the mean's scale, as a one-row matrix. -/
def pooledRow (x0 : Vec Ideal S256x56x56 .f32) : FVec Ideal S1x256 .f32 :=
  shapeCast S1x256
    (mulf (multiReduction (F := Ideal) .add [1, 2] S256 (shapeCast S256x56x56 x0 shapeCasts_S256x56x56_S256x56x56 : FVec Ideal S256x56x56 .f32)
        0x00000000#32 reduces_S256x56x56_S256 (.inl rfl) rfl)
      (broadcast S256 (Scalar.ofBits (F := Ideal) .f32 0x39A72F05#32)))
    shapeCasts_S256_S1x256

/-- The first dense layer's row: the pooled row times w1ᵀ, plus b1. -/
def hiddenRow (x0 : Vec Ideal S256x56x56 .f32) (x2 : Vec Ideal S256x64 .f32) (x3 : Vec Ideal S1x64 .f32) :
    FVec Ideal S1x64 .f32 :=
  addf (matmul dot_S1x256_S256x64_S1x64_1_0_0_1_n_n none (pooledRow x0)
      (shapeCast S256x64 x2 shapeCasts_S256x64_S256x64 : FVec Ideal S256x64 .f32) (constant (F := Ideal) S1x64 .f32 0x00000000#32))
    (shapeCast S1x64 x3 shapeCasts_S1x64_S1x64 : FVec Ideal S1x64 .f32)

/-- The second dense layer's row: the swish of the first times w2ᵀ, plus b2. -/
def exciteRow (x0 : Vec Ideal S256x56x56 .f32) (x2 : Vec Ideal S256x64 .f32) (x3 : Vec Ideal S1x64 .f32)
    (x4 : Vec Ideal S64x256 .f32) (x5 : Vec Ideal S1x256 .f32) : FVec Ideal S1x256 .f32 :=
  addf (matmul dot_S1x64_S64x256_S1x256_1_0_0_1_n_n none (mulf (hiddenRow x0 x2 x3) (logistic (hiddenRow x0 x2 x3)))
      (shapeCast S64x256 x4 shapeCasts_S64x256_S64x256 : FVec Ideal S64x256 .f32) (constant (F := Ideal) S1x256 .f32 0x00000000#32))
    (shapeCast S1x256 x5 shapeCasts_S1x256_S1x256 : FVec Ideal S1x256 .f32)

/-- The body's stored value is the gate row's σ, laid out as a column and spread over the positions, times z. -/
theorem pay_eq_stages (x0 : Vec Ideal S256x56x56 .f32) (x2 : Vec Ideal S256x64 .f32) (x3 : Vec Ideal S1x64 .f32)
    (x4 : Vec Ideal S64x256 .f32) (x5 : Vec Ideal S1x256 .f32) (x1 : Vec Ideal S256x56x56 .f32) :
    k0_pay1 (F := Ideal) x0 x2 x3 x4 x5 x1
      = mulf (broadcastTo S256x56x56
            (shapeCast S256x1x1 (logistic (exciteRow x0 x2 x3 x4 x5)) shapeCasts_S1x256_S256x1x1)
            broadcasts_S256x1x1_S256x56x56)
          (shapeCast S256x56x56 x1 shapeCasts_S256x56x56_S256x56x56 : FVec Ideal S256x56x56 .f32) := rfl

/-- The pooled row at channel k: the sum of the slab over k's positions, times the scale. -/
theorem pooledRow_apply (x0 : Vec Ideal S256x56x56 .f32) (k : Fin 256) :
    pooledRow x0 (ix2 (0 : Fin 1) k) = (∑ h : Fin 56, ∑ w : Fin 56, x0 (ix3 k h w)) * Cert.Excite.scale := by
  unfold pooledRow
  refine (row_apply _ k).trans ?_
  refine (mulf_apply _ _ _).trans ?_
  refine congrArg₂ (· * ·) ?_ rfl
  show Ideal.reduceAdd reduces_S256x56x56_S256 (shapeCast S256x56x56 x0 shapeCasts_S256x56x56_S256x56x56 : FVec Ideal S256x56x56 .f32) (ix1 k) = _
  rw [shapeCast_self]
  exact pooledSum_apply _ x0 k

/-- The first dense layer at hidden unit j. -/
theorem hiddenRow_apply (x0 : Vec Ideal S256x56x56 .f32) (x2 : Vec Ideal S256x64 .f32) (x3 : Vec Ideal S1x64 .f32)
    (j : Fin 64) :
    hiddenRow x0 x2 x3 (ix2 (0 : Fin 1) j)
      = (∑ c' : Fin 256, ((∑ h : Fin 56, ∑ w : Fin 56, x0 (ix3 c' h w)) * Cert.Excite.scale) * x2 (ix2 c' j))
        + x3 (ix2 (0 : Fin 1) j) := by
  unfold hiddenRow
  refine (addf_apply _ _ _).trans ?_
  rw [shapeCast_self, shapeCast_self]
  refine congrArg₂ (· + ·) ?_ rfl
  refine (dense1_apply _ _ j).trans ?_
  exact Finset.sum_congr rfl fun k _ => congrArg (· * x2 (ix2 k j)) (pooledRow_apply x0 k)

/-- The second dense layer at channel c. -/
theorem exciteRow_apply (x0 : Vec Ideal S256x56x56 .f32) (x2 : Vec Ideal S256x64 .f32) (x3 : Vec Ideal S1x64 .f32)
    (x4 : Vec Ideal S64x256 .f32) (x5 : Vec Ideal S1x256 .f32) (c : Fin 256) :
    exciteRow x0 x2 x3 x4 x5 (ix2 (0 : Fin 1) c)
      = (∑ j : Fin 64,
          Cert.Excite.swish ((∑ c' : Fin 256, ((∑ h : Fin 56, ∑ w : Fin 56, x0 (ix3 c' h w)) * Cert.Excite.scale) * x2 (ix2 c' j))
              + x3 (ix2 (0 : Fin 1) j)) * x4 (ix2 j c))
        + x5 (ix2 (0 : Fin 1) c) := by
  unfold exciteRow
  refine (addf_apply _ _ _).trans ?_
  rw [shapeCast_self, shapeCast_self]
  refine congrArg₂ (· + ·) ?_ rfl
  refine (dense2_apply _ _ c).trans ?_
  refine Finset.sum_congr rfl fun j _ => congrArg (· * x4 (ix2 j c)) ?_
  refine (mulf_apply _ _ _).trans ?_
  show hiddenRow x0 x2 x3 (ix2 (0 : Fin 1) j) * Ideal.logistic (hiddenRow x0 x2 x3 (ix2 (0 : Fin 1) j)) = _
  rw [hiddenRow_apply]
  rfl

/-- The body's one stored value at channel c, position (h, w): σ of the second dense layer at c, times z there. -/
theorem pay_apply (x0 : Vec Ideal S256x56x56 .f32) (x2 : Vec Ideal S256x64 .f32) (x3 : Vec Ideal S1x64 .f32)
    (x4 : Vec Ideal S64x256 .f32) (x5 : Vec Ideal S1x256 .f32) (x1 : Vec Ideal S256x56x56 .f32)
    (c : Fin 256) (h w : Fin 56) :
    k0_pay1 (F := Ideal) x0 x2 x3 x4 x5 x1 (ix3 c h w)
      = Cert.Excite.slabGate x0 x2 x3 x4 x5 c * x1 (ix3 c h w) := by
  rw [pay_eq_stages]
  refine (mulf_apply _ _ _).trans ?_
  rw [shapeCast_self]
  refine congrArg (· * x1 (ix3 c h w)) ?_
  refine (spread_apply _ c h w).trans ?_
  refine (column_apply _ c).trans ?_
  show Ideal.logistic (exciteRow x0 x2 x3 x4 x5 (ix2 (0 : Fin 1) c)) = _
  rw [exciteRow_apply]
  rfl

end Cert.KernelIdeal.Body

end
-- ==== Proof.KernelValue.lean ====
/-
  The fused kernel's result array: every batch element's block is the gate times z, so the whole array, reshaped back
  to four axes by the host, is the gated activations.
-/
import proofs.«148552_g2000302560019453_pallasbulk_905_5_alg».proof.Proof.Gen.KernelIdeal.Frame
import proofs.«148552_g2000302560019453_pallasbulk_905_5_alg».proof.Proof.KernelBody
import proofs.«148552_g2000302560019453_pallasbulk_905_5_alg».proof.Proof.Excite
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Gated

open Cert.KernelIdeal Cert.KernelIdeal.Gen

variable (m : (ℓ : Loc nD τ sig) → Buf (Elt Ideal) ℓ) (ρ : Dev nD → PrngReg)

/-! ## The arrays, named at their literal types -/

/-- The activations flattened to 8192 rows, as the region finds them. -/
abbrev xs (c : Dev nD) : FVec Ideal S8192x56x56 .f32 := V m c main_v0
/-- The second activations (the ones that are gated), flattened to 8192 rows. -/
abbrev zs (c : Dev nD) : FVec Ideal S8192x56x56 .f32 := V m c main_v1
/-- The first layer's weights, transposed. -/
abbrev w1t (c : Dev nD) : FVec Ideal S256x64 .f32 := V m c main_v2
/-- The second layer's weights, transposed. -/
abbrev w2t (c : Dev nD) : FVec Ideal S64x256 .f32 := V m c main_v3
/-- The first layer's bias as a one-row matrix. -/
abbrev b1r (c : Dev nD) : FVec Ideal S1x64 .f32 := V m c main_v4
/-- The second layer's bias as a one-row matrix. -/
abbrev b2r (c : Dev nD) : FVec Ideal S1x256 .f32 := V m c main_v5

/-- The six arguments as launched. -/
abbrev ax (c : Dev nD) : FVec Ideal S32x256x56x56 .f32 := m ((c : Thread nD τ).loc main_arg0)
abbrev az (c : Dev nD) : FVec Ideal S32x256x56x56 .f32 := m ((c : Thread nD τ).loc main_arg1)
abbrev aw1 (c : Dev nD) : FVec Ideal S64x256 .f32 := m ((c : Thread nD τ).loc main_arg2)
abbrev ab1 (c : Dev nD) : FVec Ideal S64 .f32 := m ((c : Thread nD τ).loc main_arg3)
abbrev aw2 (c : Dev nD) : FVec Ideal S256x64 .f32 := m ((c : Thread nD τ).loc main_arg4)
abbrev ab2 (c : Dev nD) : FVec Ideal S256 .f32 := m ((c : Thread nD τ).loc main_arg5)

/-! ## What the host operations before the region left -/

theorem xs_eq (c : Dev nD) : xs m c = shapeCast S8192x56x56 (ax m c) shapeCasts_S32x256x56x56_S8192x56x56 := by
  show (V m c main_v0 : S8192x56x56.Idx → EReal) = _
  dsimp only [V, V0]
  simp only [hostOps0, List.flatten_cons, List.flatten_nil, List.append_nil, List.cons_append, List.nil_append]
  after_results
  rfl

theorem zs_eq (c : Dev nD) : zs m c = shapeCast S8192x56x56 (az m c) shapeCasts_S32x256x56x56_S8192x56x56 := by
  show (V m c main_v1 : S8192x56x56.Idx → EReal) = _
  dsimp only [V, V0]
  simp only [hostOps0, List.flatten_cons, List.flatten_nil, List.append_nil, List.cons_append, List.nil_append]
  after_results
  rfl

theorem w1t_eq (c : Dev nD) : w1t m c = transpose S256x64 [1, 0] (aw1 m c) transposes_S64x256_S256x64_1_0 := by
  show (V m c main_v2 : S256x64.Idx → EReal) = _
  dsimp only [V, V0]
  simp only [hostOps0, List.flatten_cons, List.flatten_nil, List.append_nil, List.cons_append, List.nil_append]
  after_results

theorem w2t_eq (c : Dev nD) : w2t m c = transpose S64x256 [1, 0] (aw2 m c) transposes_S256x64_S64x256_1_0 := by
  show (V m c main_v3 : S64x256.Idx → EReal) = _
  dsimp only [V, V0]
  simp only [hostOps0, List.flatten_cons, List.flatten_nil, List.append_nil, List.cons_append, List.nil_append]
  after_results

theorem b1r_eq (c : Dev nD) : b1r m c = shapeCast S1x64 (ab1 m c) shapeCasts_S64_S1x64 := by
  show (V m c main_v4 : S1x64.Idx → EReal) = _
  dsimp only [V, V0]
  simp only [hostOps0, List.flatten_cons, List.flatten_nil, List.append_nil, List.cons_append, List.nil_append]
  after_results
  rfl

theorem b2r_eq (c : Dev nD) : b2r m c = shapeCast S1x256 (ab2 m c) shapeCasts_S256_S1x256 := by
  show (V m c main_v5 : S1x256.Idx → EReal) = _
  dsimp only [V, V0]
  simp only [hostOps0, List.flatten_cons, List.flatten_nil, List.append_nil, List.cons_append, List.nil_append]
  after_results
  rfl

/-! ## Those arrays read at an index -/

/-- Row 256·b + ch of the flattened activations is channel ch of batch element b. -/
theorem xs_apply (c : Dev nD) (b : Fin 32) (ch : Fin 256) (h w : Fin 56) (r : Fin 8192) (hr : r.val = 256 * b.val + ch.val) :
    xs m c (ix3 r h w) = ax m c (ix4 b ch h w) := by
  rw [xs_eq]
  refine shapeCast_apply _ _ _ _ ?_
  rw [Shape.rowMajor_val_four, Shape.rowMajor_val_three]
  show ((b.val * 256 + ch.val) * 56 + h.val) * 56 + w.val = (r.val * 56 + h.val) * 56 + w.val
  rw [hr]; ring

theorem zs_apply (c : Dev nD) (b : Fin 32) (ch : Fin 256) (h w : Fin 56) (r : Fin 8192) (hr : r.val = 256 * b.val + ch.val) :
    zs m c (ix3 r h w) = az m c (ix4 b ch h w) := by
  rw [zs_eq]
  refine shapeCast_apply _ _ _ _ ?_
  rw [Shape.rowMajor_val_four, Shape.rowMajor_val_three]
  show ((b.val * 256 + ch.val) * 56 + h.val) * 56 + w.val = (r.val * 56 + h.val) * 56 + w.val
  rw [hr]; ring

theorem w1t_apply (c : Dev nD) (ch : Fin 256) (j : Fin 64) : w1t m c (ix2 ch j) = aw1 m c (ix2 j ch) := by
  rw [w1t_eq]
  exact transpose_ix2_apply (aw1 m c) transposes_S64x256_S256x64_1_0 ch j

theorem w2t_apply (c : Dev nD) (j : Fin 64) (ch : Fin 256) : w2t m c (ix2 j ch) = aw2 m c (ix2 ch j) := by
  rw [w2t_eq]
  exact transpose_ix2_apply (aw2 m c) transposes_S256x64_S64x256_1_0 j ch

theorem b1r_apply (c : Dev nD) (j : Fin 64) : b1r m c (ix2 0 j) = ab1 m c (ix1 j) := by
  rw [b1r_eq]
  exact shapeCast_a_1a_apply (ab1 m c) shapeCasts_S64_S1x64 0 j

theorem b2r_apply (c : Dev nD) (ch : Fin 256) : b2r m c (ix2 0 ch) = ab2 m c (ix1 ch) := by
  rw [b2r_eq]
  exact shapeCast_a_1a_apply (ab2 m c) shapeCasts_S256_S1x256 0 ch

/-! ## The windows' index maps over the grid, and each window's block read off its array -/

/-- Point t of the grid works rows 256·t … 256·t + 255 of the flattened activations and of the result, all positions;
    the weights and biases are whole at every point. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 3) = t.val ∧ win0_6.index t (1 : Fin 3) = 0 ∧ win0_6.index t (2 : Fin 3) = 0) :=
  (by decide +kernel : ∀ t : Fin grid0.N, _)

/-- The two activation blocks of a point, at their literal type. -/
abbrev xblk (c : Dev nD) (t : Fin cfg0.N) : Vec Ideal S256x56x56 .f32 := iblk m c 0 t
abbrev zblk (c : Dev nD) (t : Fin cfg0.N) : Vec Ideal S256x56x56 .f32 := iblk m c 1 t

theorem xblk_apply (c : Dev nD) (t : Fin cfg0.N) (ch : Fin 256) (h w : Fin 56) (r : Fin 8192)
    (hr : r.val = 256 * t.val + ch.val) :
    xblk m c t (ix3 ch h w) = xs m c (ix3 r h w) := by
  obtain ⟨⟨e0, e1, e2⟩, -⟩ := idx_facts t
  unfold xblk iblk
  rw [View.read_apply]
  show V m c main_v0 _ = V m c main_v0 _
  congr 1
  funext a
  apply Fin.ext
  match a with
  | ⟨0, _⟩ => show win0_0.index t (0 : Fin 3) * 256 + 1 * ch.val = r.val; rw [e0, hr]; omega
  | ⟨1, _⟩ => show win0_0.index t (1 : Fin 3) * 56 + 1 * h.val = h.val; rw [e1]; omega
  | ⟨2, _⟩ => show win0_0.index t (2 : Fin 3) * 56 + 1 * w.val = w.val; rw [e2]; omega

theorem zblk_apply (c : Dev nD) (t : Fin cfg0.N) (ch : Fin 256) (h w : Fin 56) (r : Fin 8192)
    (hr : r.val = 256 * t.val + ch.val) :
    zblk m c t (ix3 ch h w) = zs m c (ix3 r h w) := by
  obtain ⟨-, ⟨e0, e1, e2⟩, -⟩ := idx_facts t
  unfold zblk iblk
  rw [View.read_apply]
  show V m c main_v1 _ = V m c main_v1 _
  congr 1
  funext a
  apply Fin.ext
  match a with
  | ⟨0, _⟩ => show win0_1.index t (0 : Fin 3) * 256 + 1 * ch.val = r.val; rw [e0, hr]; omega
  | ⟨1, _⟩ => show win0_1.index t (1 : Fin 3) * 56 + 1 * h.val = h.val; rw [e1]; omega
  | ⟨2, _⟩ => show win0_1.index t (2 : Fin 3) * 56 + 1 * w.val = w.val; rw [e2]; omega

theorem w1blk_eq (c : Dev nD) (t : Fin cfg0.N) : (iblk m c 2 t : Vec Ideal S256x64 .f32) = w1t m c := by
  obtain ⟨-, -, ⟨e0, e1⟩, -⟩ := idx_facts t
  funext y
  unfold iblk
  rw [View.read_apply]
  show V m c main_v2 _ = V m c main_v2 _
  congr 1
  funext a
  apply Fin.ext
  match a with
  | ⟨0, _⟩ => show win0_2.index t (0 : Fin 2) * 256 + 1 * (y 0).val = (y 0).val; rw [e0]; omega
  | ⟨1, _⟩ => show win0_2.index t (1 : Fin 2) * 64 + 1 * (y 1).val = (y 1).val; rw [e1]; omega

theorem b1blk_eq (c : Dev nD) (t : Fin cfg0.N) : (iblk m c 3 t : Vec Ideal S1x64 .f32) = b1r m c := by
  obtain ⟨-, -, -, ⟨e0, e1⟩, -⟩ := idx_facts t
  funext y
  unfold iblk
  rw [View.read_apply]
  show V m c main_v4 _ = V m c main_v4 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

theorem w2blk_eq (c : Dev nD) (t : Fin cfg0.N) : (iblk m c 4 t : Vec Ideal S64x256 .f32) = w2t m c := by
  obtain ⟨-, -, -, -, ⟨e0, e1⟩, -⟩ := idx_facts t
  funext y
  unfold iblk
  rw [View.read_apply]
  show V m c main_v3 _ = V m c main_v3 _
  congr 1
  funext a
  apply Fin.ext
  match a with
  | ⟨0, _⟩ => show win0_4.index t (0 : Fin 2) * 64 + 1 * (y 0).val = (y 0).val; rw [e0]; omega
  | ⟨1, _⟩ => show win0_4.index t (1 : Fin 2) * 256 + 1 * (y 1).val = (y 1).val; rw [e1]; omega

theorem b2blk_eq (c : Dev nD) (t : Fin cfg0.N) : (iblk m c 5 t : Vec Ideal S1x256 .f32) = b2r m c := by
  obtain ⟨-, -, -, -, -, ⟨e0, e1⟩, -⟩ := idx_facts t
  funext y
  unfold iblk
  rw [View.read_apply]
  show V m c main_v5 _ = V m c main_v5 _
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 256 + 1 * (y 1).val = (y 1).val; rw [e1]; omega

/-! ## The region's result array in closed form -/

theorem hz3 : (![0, 0, 0] : Fin 3 → Nat) = fun _ => 0 := funext fun a => by fin_cases a <;> rfl
theorem hz2 : (![0, 0] : Fin 2 → Nat) = fun _ => 0 := funext fun a => by fin_cases a <;> rfl

/-- The gate that row r of the flattened arrays takes: that of channel r mod 256 of batch element r div 256. -/
def rowGate (c : Dev nD) (r : Fin 8192) : EReal :=
  Cert.Excite.gate (ax m c) (aw1 m c) (ab1 m c) (aw2 m c) (ab2 m c)
    ⟨r.val / 256, by have := r.isLt; omega⟩ ⟨r.val % 256, by omega⟩

/-- What the region leaves in its result array: every row of the gated activations times its gate. -/
def gated (c : Dev nD) : FVec Ideal S8192x56x56 .f32 := fun i => rowGate m c (i 0) * zs m c i

theorem point_lt (t : Fin cfg0.N) : t.val < 32 := Nat.lt_of_lt_of_eq t.isLt N_0

/-- The body's value at point t, channel ch, position (h, w) is entry (256·t + ch, h, w) of the closed form. -/
theorem point_value (c : Dev nD) (t : Fin cfg0.N) (ch : Fin 256) (h w : Fin 56) (r : Fin 8192)
    (hr : r.val = 256 * t.val + ch.val) :
    k0_pay1 (F := Ideal) (xblk m c t) (w1t m c) (b1r m c) (w2t m c) (b2r m c) (zblk m c t) (ix3 ch h w)
      = gated m c (ix3 r h w) := by
  have hN : t.val < 32 := point_lt t
  refine (Cert.KernelIdeal.Body.pay_apply (xblk m c t) (w1t m c) (b1r m c) (w2t m c) (b2r m c) (zblk m c t) ch h w).trans ?_
  have hg := Cert.Excite.slabGate_eq (ax m c) (aw1 m c) (ab1 m c) (aw2 m c) (ab2 m c) ⟨t.val, hN⟩
    (xblk m c t) (w1t m c) (b1r m c) (w2t m c) (b2r m c)
    (fun ch' h' w' => (xblk_apply m c t ch' h' w' ⟨256 * t.val + ch'.val, by have := ch'.isLt; omega⟩ rfl).trans
      (xs_apply m c ⟨t.val, hN⟩ ch' h' w' _ rfl))
    (w1t_apply m c) (b1r_apply m c) (w2t_apply m c) (b2r_apply m c) ch
  rw [hg, zblk_apply m c t ch h w r hr]
  show _ = rowGate m c r * zs m c (ix3 r h w)
  unfold rowGate
  have e1 : (⟨t.val, hN⟩ : Fin 32) = ⟨r.val / 256, by have := r.isLt; omega⟩ := Fin.ext (by show t.val = r.val / 256; have := ch.isLt; omega)
  have e2 : ch = ⟨r.val % 256, by omega⟩ := Fin.ext (by show ch.val = r.val % 256; have := ch.isLt; omega)
  rw [e1, ← e2]

/-- The same with the block's index and the array's index given by their coordinates' arithmetic. -/
theorem point_value_idx (c : Dev nD) (t : Fin cfg0.N) (y : S256x56x56.Idx) (i : S8192x56x56.Idx)
    (h0 : (i 0).val = 256 * t.val + (y 0).val) (h1 : (i 1).val = (y 1).val) (h2 : (i 2).val = (y 2).val) :
    k0_pay1 (F := Ideal) (xblk m c t) (w1t m c) (b1r m c) (w2t m c) (b2r m c) (zblk m c t) y = gated m c i := by
  obtain ⟨ch, h, w, rfl⟩ : ∃ (ch : Fin 256) (h w : Fin 56), y = ix3 ch h w := ⟨y 0, y 1, y 2, eq_ix3 y⟩
  obtain ⟨r, h', w', rfl⟩ : ∃ (r : Fin 8192) (h' w' : Fin 56), i = ix3 r h' w' := ⟨i 0, i 1, i 2, eq_ix3 i⟩
  have eh : h' = h := Fin.ext h1
  have ew : w' = w := Fin.ext h2
  subst eh ew
  exact point_value m c t ch h' w' r h0

/-- What point t writes back is its block of the closed form. -/
theorem flushed_eq (c : Dev nD) (t : Fin cfg0.N) :
    (dats m 0 c).flushed 6 t = ((cfg0.win 6).blk t).view.read (Elt Ideal) (gated m c) := by
  show (cfg0.win 6).cut (grid0.coords t) ((dats m 0 c).after 6 t) = _
  rw [after0_6]
  unfold out0_6
  rw [View.canon_unit_zero hz3]
  simp only [View.ld_unit_zero (S := S256x56x56) hz3, View.ld_unit_zero (S := S256x64) hz2,
    View.ld_unit_zero (S := S1x64) hz2, View.ld_unit_zero (S := S64x256) hz2, View.ld_unit_zero (S := S1x256) hz2]
  rw [w1blk_eq, b1blk_eq, w2blk_eq, b2blk_eq]
  obtain ⟨-, -, -, -, -, -, ⟨e0, e1, e2⟩⟩ := idx_facts t
  funext j
  rw [View.read_apply]
  refine point_value_idx m c t ((cfg0.win 6).xinj (grid0.coords t) j) (((cfg0.win 6).blk t).view.emb j) ?_ ?_ ?_
  · show win0_6.index t (0 : Fin 3) * 256 + 1 * (j 0).val = 256 * t.val + (j 0).val
    rw [e0]; omega
  · show win0_6.index t (1 : Fin 3) * 56 + 1 * (j 1).val = (j 1).val
    rw [e1]; omega
  · show win0_6.index t (2 : Fin 3) * 56 + 1 * (j 2).val = (j 2).val
    rw [e2]; omega

/-! ## The cover: row r lies in the block of point r div 256 -/

/-- An index of the result array is in point t's block iff each coordinate is in the block's range on its axis. -/
theorem mem_blk (t : Fin cfg0.N) (i : S8192x56x56.Idx) :
    i ∈ ((cfg0.win 6).blk t).view.set ↔ ∀ a : Fin 3, win0_6.index t a * S256x56x56.size a ≤ (i a).val
      ∧ (i a).val < win0_6.index t a * S256x56x56.size a + S256x56x56.size a := by
  show i ∈ ((View.whole main_v6).slice (win0_6.rect t)).set ↔ _
  rw [View.set_slice_whole, Rect.mem_set_unit]
  exact Iff.rfl

/-- The region's result array after the run is the closed form. -/
theorem final (c : Dev nD) : (dats m 0 c).arrAt 6 cfg0.N = gated m c :=
  (dats m 0 c).arrAt_eq_of_cover 6 (gated m c) (fun t _ => flushed_eq m c t) fun i => by
    have hi0 : (i 0).val < 8192 := (i 0).isLt
    have hi1 : (i 1).val < 56 := (i 1).isLt
    have hi2 : (i 2).val < 56 := (i 2).isLt
    have hq : (i 0).val / 256 < cfg0.N := by rw [show cfg0.N = 32 from N_0]; omega
    obtain ⟨-, -, -, -, -, -, ⟨e0, e1, e2⟩⟩ := idx_facts ⟨(i 0).val / 256, hq⟩
    refine ⟨⟨(i 0).val / 256, hq⟩, flush0_6 _, ?_⟩
    rw [mem_blk]
    intro a
    match a with
    | ⟨0, _⟩ =>
      show win0_6.index ⟨(i 0).val / 256, hq⟩ (0 : Fin 3) * 256 ≤ (i 0).val
        ∧ (i 0).val < win0_6.index ⟨(i 0).val / 256, hq⟩ (0 : Fin 3) * 256 + 256
      rw [e0]; show (i 0).val / 256 * 256 ≤ (i 0).val ∧ (i 0).val < (i 0).val / 256 * 256 + 256; omega
    | ⟨1, _⟩ =>
      show win0_6.index ⟨(i 0).val / 256, hq⟩ (1 : Fin 3) * 56 ≤ (i 1).val
        ∧ (i 1).val < win0_6.index ⟨(i 0).val / 256, hq⟩ (1 : Fin 3) * 56 + 56
      rw [e1]; omega
    | ⟨2, _⟩ =>
      show win0_6.index ⟨(i 0).val / 256, hq⟩ (2 : Fin 3) * 56 ≤ (i 2).val
        ∧ (i 2).val < win0_6.index ⟨(i 0).val / 256, hq⟩ (2 : Fin 3) * 56 + 56
      rw [e2]; omega

/-! ## The host's closing reshape -/

/-- The closed form reshaped back to four axes is the gated activations. -/
theorem gated_reshaped (c : Dev nD) :
    shapeCast S32x256x56x56 (gated m c) shapeCasts_S8192x56x56_S32x256x56x56
      = Cert.Excite.result (ax m c) (az m c) (aw1 m c) (ab1 m c) (aw2 m c) (ab2 m c) := by
  funext i
  obtain ⟨b, ch, h, w, rfl⟩ : ∃ (b : Fin 32) (ch : Fin 256) (h w : Fin 56), i = ix4 b ch h w :=
    ⟨i 0, i 1, i 2, i 3, eq_ix4 i⟩
  have hr : 256 * b.val + ch.val < 8192 := by have := b.isLt; have := ch.isLt; omega
  refine (shapeCast_apply (gated m c) shapeCasts_S8192x56x56_S32x256x56x56 (ix4 b ch h w)
    (ix3 ⟨256 * b.val + ch.val, hr⟩ h w) ?_).trans ?_
  · rw [Shape.rowMajor_val_four, Shape.rowMajor_val_three]
    show ((256 * b.val + ch.val) * 56 + h.val) * 56 + w.val = ((b.val * 256 + ch.val) * 56 + h.val) * 56 + w.val
    ring
  · rw [Cert.Excite.result_apply]
    show rowGate m c ⟨256 * b.val + ch.val, hr⟩ * zs m c (ix3 ⟨256 * b.val + ch.val, hr⟩ h w) = _
    rw [zs_apply m c b ch h w ⟨256 * b.val + ch.val, hr⟩ rfl]
    unfold rowGate
    have e1 : (⟨(⟨256 * b.val + ch.val, hr⟩ : Fin 8192).val / 256, by omega⟩ : Fin 32) = b :=
      Fin.ext (by show (256 * b.val + ch.val) / 256 = b.val; have := ch.isLt; omega)
    have e2 : (⟨(⟨256 * b.val + ch.val, hr⟩ : Fin 8192).val % 256, by omega⟩ : Fin 256) = ch :=
      Fin.ext (by show (256 * b.val + ch.val) % 256 = ch.val; have := ch.isLt; omega)
    rw [e1, e2]

/-- The program's result buffer after the host's closing reshape, as a function of the launch memory. -/
theorem result_eq (c : Dev nD) :
    Pipeline.afterTail₀ cfgs (dats m) 0 (V0 m) [hostOps1] c main_v7
      = Cert.Excite.result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  have e : Pipeline.withArrays (cfgs 0).spec c (V0 m c) (fun w => (dats m 0 c).arrAt w (cfgs 0).N)
      (Proc.devRef .tc main_v6) = gated m c :=
    (Pipeline.withArrays_arr spec0 launch0.win.arr_inj c _ _ 6).trans (final m c)
  unfold Pipeline.afterTail₀
  show StableHlo.after hostOps1 _ (Proc.devRef .tc main_v7) = _
  after_results
  rw [e]
  exact gated_reshaped m c

/-- The run, read: the result at the gated activations, the arguments unchanged. -/
theorem run : θ_run defs (onTc (τ := τ) (main (F := Ideal))) ⟨m, fun _ => 0, ρ⟩ (fun r => ∀ c : Dev nD,
      r.2.mem ((c.tc : Thread nD τ).loc main_v7)
        = Cert.Excite.result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v7 (Pipeline.mem_restRefs_of main_v7 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.Gated

end
-- ==== Proof.GateRegion.lean ====
/-
  The reference's second kernel region, a row-wise scaling tiled 32 × 5: whatever arrays it is entered with, entry
  (r, k) of its 8192 × 3200 result ends at row r's scale times entry (r, k) of the other input.
-/
import proofs.«148552_g2000302560019453_pallasbulk_905_5_alg».proof.Proof.Gen.ReferenceIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.ReferenceIdeal.Scale

open Cert.ReferenceIdeal Cert.ReferenceIdeal.Gen

variable (V : (c : Dev nD) → (b : Ref sig .tc) → Buf (Elt Ideal) ((c : Thread nD τ).loc b))

/-! ## The tile's arithmetic -/

/-- A column of per-row values broadcast along the lanes reads, at (p, l), row p's value. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (l : Fin b) :
    broadcastTo ⟨2, ![a, b]⟩ v h (ix2 p l) = v (ix2 p (0 : Fin 1)) := by
  refine broadcastTo_apply v h (ix2 p l) (ix2 p (0 : Fin 1)) fun ax => ?_
  match ax with
  | ⟨0, _⟩ =>
    show p.val = if a = 1 then 0 else p.val
    split
    · have := p.isLt; omega
    · rfl
  | ⟨1, _⟩ => rfl

/-- The body's one store: entry (p, l) of the tile it writes is row p's scale times entry (p, l) of the input tile. -/
theorem scaled_tile_apply (v0 : FVec Ideal S256x1 .f32) (v2 : FVec Ideal S256x640 .f32) (p : Fin 256) (l : Fin 640) :
    k1_pay1 (F := Ideal) v0 v2 (ix2 p l) = v0 (ix2 p (0 : Fin 1)) * v2 (ix2 p l) := by
  unfold k1_pay1
  rw [shapeCast_self, shapeCast_self, mulf_apply, broadcastTo_a1_ab_apply]

/-! ## The grid's index maps -/

/-- Where each window's block sits at grid point t: the row tile is t / 5 and the column tile t % 5; the scales'
    window has one column of blocks. -/
theorem tile_index : ∀ t : Fin cfg1.N, win1_0.index t (0 : Fin 2) = t.val / 5 ∧ win1_0.index t (1 : Fin 2) = 0
    ∧ win1_1.index t (0 : Fin 2) = t.val / 5 ∧ win1_1.index t (1 : Fin 2) = t.val % 5
    ∧ win1_2.index t (0 : Fin 2) = t.val / 5 ∧ win1_2.index t (1 : Fin 2) = t.val % 5 :=
  (by decide +kernel : ∀ t : Fin grid1.N, _)

/-- The region's per-row scales and its big input as it is entered, -/
abbrev scaleArr (c : Dev nD) : FVec Ideal S8192x1 .f32 := V c main_v32
abbrev bigArr (c : Dev nD) : FVec Ideal S8192x3200 .f32 := V c main_v31
/-- and its result array after the last grid point. -/
abbrev outArr (c : Dev nD) : FVec Ideal S8192x3200 .f32 := (dat1 (F := Ideal) V c).arrAt 2 cfg1.N

/-! ## The windows' blocks, read off the arrays -/

/-- The scales' block and the input's block at grid point t. -/
abbrev scaleBlk (c : Dev nD) (t : Fin cfg1.N) : FVec Ideal S256x1 .f32 := iblk1 (F := Ideal) V c 0 t
abbrev bigBlk (c : Dev nD) (t : Fin cfg1.N) : FVec Ideal S256x640 .f32 := iblk1 (F := Ideal) V c 1 t

/-- Row p of the scales' block at point t is row 256 (t / 5) + p of the scales. -/
theorem scaleBlk_apply (c : Dev nD) (t : Fin cfg1.N) (x : S256x1.Idx) (i : S8192x1.Idx)
    (h0 : (i 0).val = 256 * (t.val / 5) + (x 0).val) (h1 : (i 1).val = (x 1).val) :
    scaleBlk V c t x = scaleArr V c i := by
  obtain ⟨e0, e1, -⟩ := tile_index t
  unfold scaleBlk iblk1
  rw [View.read_apply]
  show V c main_v32 _ = V c main_v32 i
  congr 1
  funext a
  apply Fin.ext
  match a with
  | ⟨0, _⟩ => show win1_0.index t (0 : Fin 2) * 256 + 1 * (x 0).val = (i 0).val; rw [e0, h0]; omega
  | ⟨1, _⟩ => show win1_0.index t (1 : Fin 2) * 1 + 1 * (x 1).val = (i 1).val; rw [e1, h1]; omega

/-- Entry (p, l) of the input's block at point t is entry (256 (t / 5) + p, 640 (t % 5) + l) of the input. -/
theorem bigBlk_apply (c : Dev nD) (t : Fin cfg1.N) (x : S256x640.Idx) (i : S8192x3200.Idx)
    (h0 : (i 0).val = 256 * (t.val / 5) + (x 0).val) (h1 : (i 1).val = 640 * (t.val % 5) + (x 1).val) :
    bigBlk V c t x = bigArr V c i := by
  obtain ⟨-, -, e0, e1, -⟩ := tile_index t
  unfold bigBlk iblk1
  rw [View.read_apply]
  show V c main_v31 _ = V c main_v31 i
  congr 1
  funext a
  apply Fin.ext
  match a with
  | ⟨0, _⟩ => show win1_1.index t (0 : Fin 2) * 256 + 1 * (x 0).val = (i 0).val; rw [e0, h0]; omega
  | ⟨1, _⟩ => show win1_1.index t (1 : Fin 2) * 640 + 1 * (x 1).val = (i 1).val; rw [e1, h1]; omega

/-! ## What each grid point writes back -/

/-- What the region computes, as one function of the arrays it is entered with: each entry of the input times its
    row's scale. -/
abbrev gated (c : Dev nD) : FVec Ideal S8192x3200 .f32 :=
  fun i => scaleArr V c (ix2 (n0 := 8192) (n1 := 1) (i 0) 0) * bigArr V c i

/-- Entry (p, l) of the tile computed at point t is the entry of `gated` at row 256 (t / 5) + p, column 640 (t % 5) + l. -/
theorem tile_eq_gated (c : Dev nD) (t : Fin cfg1.N) (p : Fin 256) (l : Fin 640) (i : S8192x3200.Idx)
    (h0 : (i 0).val = 256 * (t.val / 5) + p.val) (h1 : (i 1).val = 640 * (t.val % 5) + l.val) :
    scaleBlk V c t (ix2 p (0 : Fin 1)) * bigBlk V c t (ix2 p l) = gated V c i := by
  show _ = scaleArr V c (ix2 (n0 := 8192) (n1 := 1) (i 0) 0) * bigArr V c i
  rw [scaleBlk_apply V c t (ix2 p (0 : Fin 1)) (ix2 (n0 := 8192) (n1 := 1) (i 0) 0) h0 rfl,
    bigBlk_apply V c t (ix2 p l) i h0 h1]

/-- The body loads and stores whole tiles: every access starts at offset (0, 0). -/
theorem zero_offsets : (![0, 0] : Fin 2 → Nat) = fun _ => 0 := funext fun a => by fin_cases a <;> rfl

/-- What grid point t writes back is its block of `gated`. -/
theorem written_eq (c : Dev nD) (t : Fin cfg1.N) :
    (dat1 (F := Ideal) V c).flushed 2 t = ((cfg1.win 2).blk t).view.read (Elt Ideal) (gated V c) := by
  show (cfg1.win 2).cut (grid1.coords t) ((dat1 (F := Ideal) V c).after 2 t) = _
  rw [after1_2]
  unfold out1_2
  rw [View.canon_unit_zero zero_offsets]
  simp only [View.ld_unit_zero (S := S256x1) zero_offsets, View.ld_unit_zero (S := S256x640) zero_offsets]
  obtain ⟨-, -, -, -, e0, e1⟩ := tile_index t
  funext j
  obtain ⟨p, l, rfl⟩ : ∃ (p : Fin 256) (l : Fin 640), j = ix2 p l := ⟨j 0, j 1, eq_ix2 j⟩
  show k1_pay1 (F := Ideal) (scaleBlk V c t) (bigBlk V c t) (ix2 p l)
    = gated V c (((cfg1.win 2).blk t).view.emb (ix2 p l))
  refine (scaled_tile_apply (scaleBlk V c t) (bigBlk V c t) p l).trans ?_
  exact tile_eq_gated V c t p l _
    (by show win1_2.index t (0 : Fin 2) * 256 + 1 * p.val = _; rw [e0]; omega)
    (by show win1_2.index t (1 : Fin 2) * 640 + 1 * l.val = _; rw [e1]; omega)

/-! ## The blocks tile the result array -/

/-- An entry of the result array is in point t's block iff each of its coordinates is in the block's range. -/
theorem mem_tile (t : Fin cfg1.N) (i : S8192x3200.Idx) :
    i ∈ ((cfg1.win 2).blk t).view.set ↔ ∀ a : Fin 2, win1_2.index t a * S256x640.size a ≤ (i a).val
      ∧ (i a).val < win1_2.index t a * S256x640.size a + S256x640.size a := by
  show i ∈ ((View.whole main_v33).slice (win1_2.rect t)).set ↔ _
  rw [View.set_slice_whole, Rect.mem_set_unit]
  exact Iff.rfl

/-- Entry (r, k) is written by the grid point of row tile r / 256 and column tile k / 640, which is point
    5 (r / 256) + k / 640 of the row-major grid. -/
theorem covered (i : S8192x3200.Idx) :
    ∃ t : Fin cfg1.N, (cfg1.win 2).flush t = true ∧ i ∈ ((cfg1.win 2).blk t).view.set := by
  have hi0 : (i 0).val < 8192 := (i 0).isLt
  have hi1 : (i 1).val < 3200 := (i 1).isLt
  obtain ⟨t, ht⟩ : ∃ t : Fin cfg1.N, t.val = 5 * ((i 0).val / 256) + (i 1).val / 640 :=
    ⟨⟨5 * ((i 0).val / 256) + (i 1).val / 640, by rw [show cfg1.N = 160 from N_1]; omega⟩, rfl⟩
  obtain ⟨-, -, -, -, e0, e1⟩ := tile_index t
  refine ⟨t, flush1_2 t, ?_⟩
  rw [mem_tile]
  intro a
  match a with
  | ⟨0, _⟩ =>
    show win1_2.index t (0 : Fin 2) * 256 ≤ (i 0).val ∧ (i 0).val < win1_2.index t (0 : Fin 2) * 256 + 256
    rw [e0, ht]; omega
  | ⟨1, _⟩ =>
    show win1_2.index t (1 : Fin 2) * 640 ≤ (i 1).val ∧ (i 1).val < win1_2.index t (1 : Fin 2) * 640 + 640
    rw [e1, ht]; omega

/-- So the result array ends holding `gated`. -/
theorem outArr_eq (c : Dev nD) : outArr V c = gated V c :=
  (dat1 (F := Ideal) V c).arrAt_eq_of_cover 2 (gated V c) (fun t _ => written_eq V c t) covered

/-- Entry (r, k) of the region's result. -/
theorem gated_apply (c : Dev nD) (r : Fin 8192) (k : Fin 3200) :
    outArr V c (ix2 r k) = scaleArr V c (ix2 r 0) * bigArr V c (ix2 r k) :=
  congrFun (outArr_eq V c) (ix2 r k)

end Cert.ReferenceIdeal.Scale

end
-- ==== Proof.Relaid.lean ====
/-
  The reference's re-laying of the activations: flattened to 8192 rows of 3136 entries and zero-padded to 3200 before
  each kernel region, cut back to 3136 and unflattened after the second — each read at an index.
-/
import proofs.«148552_g2000302560019453_pallasbulk_905_5_alg».proof.Proof.Gen.ReferenceIdeal.Frame
import proofs.«148552_g2000302560019453_pallasbulk_905_5_alg».proof.Proof.Excite
import Idealize.ShloMosaic.Lib.Pipeline.Value
import Idealize.ShloMosaic.Lib.ValueIdx
import Idealize.ShloMosaic.Lib.ValueLayout
import Idealize.ShloMosaic.Lib.KernelVsHost
import Idealize.ShloMosaic.Lib.Pipeline.Frame
import Idealize.ShloMosaic.PureOps.Ideal.Laws
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.ReferenceIdeal.Relaid

open Cert.ReferenceIdeal Cert.ReferenceIdeal.Gen Cert.Excite

variable (m : (ℓ : Loc nD τ sig) → Buf (Elt Ideal) ℓ) (ρ : Dev nD → PrngReg)

/-- The two activation arguments as launched, -/
abbrev xarg (c : Dev nD) : FVec Ideal S32x256x56x56 .f32 := m ((c : Thread nD τ).loc main_arg0)
abbrev zarg (c : Dev nD) : FVec Ideal S32x256x56x56 .f32 := m ((c : Thread nD τ).loc main_arg1)
/-- their flattened, padded forms as the two regions are entered with them, -/
abbrev xpad (c : Dev nD) : FVec Ideal S8192x3200 .f32 := V2 m ρ c main_v1
abbrev zpad (c : Dev nD) : FVec Ideal S8192x3200 .f32 := V6 m ρ c main_v31
/-- the second region's result array after the region, and the program's result after the last host stretch. -/
abbrev out2 (c : Dev nD) : FVec Ideal S8192x3200 .f32 := W7 m ρ c (Proc.devRef .tc main_v33)
abbrev out4 (c : Dev nD) : FVec Ideal S32x256x56x56 .f32 := W8 m ρ c (Proc.devRef .tc main_v35)

/-! ## Reading the layout operations at an index

Each lemma is over arbitrary arrays of the literal shapes. Row 256·b + ch of the 8192-row matrices is channel ch of
batch element b, and entry 56·h + w of a row is position (h, w): both orders are row-major, so a flattening and its
inverse move no entry. -/

/-- Position (h, w) of a 56 × 56 map as an entry of an unpadded row of 3136. -/
def flat0 (h w : Fin 56) : Fin 3136 := ⟨56 * h.val + w.val, by have := h.isLt; have := w.isLt; omega⟩

/-- The flattening [32,256,56,56] → [8192,3136] read at (256·b + ch, 56·h + w) is entry (b, ch, h, w): the row-major
    position on either side is ((256·b + ch)·56 + h)·56 + w. -/
theorem flatten_apply (x : FVec Ideal S32x256x56x56 .f32) (b : Fin 32) (ch : Fin 256) (h w : Fin 56) :
    shapeCast S8192x3136 x shapeCasts_S32x256x56x56_S8192x3136 (ix2 (row b ch) (flat0 h w)) = x (ix4 b ch h w) :=
  shapeCast_apply x shapeCasts_S32x256x56x56_S8192x3136 (ix2 (row b ch) (flat0 h w)) (ix4 b ch h w) (by
    rw [Shape.rowMajor_val_two, Shape.rowMajor_val_four]
    have hb := b.isLt; have hc := ch.isLt; have hh := h.isLt; have hw := w.isLt
    show ((b.val * 256 + ch.val) * 56 + h.val) * 56 + w.val = (256 * b.val + ch.val) * 3136 + (56 * h.val + w.val)
    omega)

/-- The inverse reshape [8192,3136] → [32,256,56,56] read at (b, ch, h, w) is entry (256·b + ch, 56·h + w). -/
theorem unflatten_apply (y : FVec Ideal S8192x3136 .f32) (b : Fin 32) (ch : Fin 256) (h w : Fin 56) :
    shapeCast S32x256x56x56 y shapeCasts_S8192x3136_S32x256x56x56 (ix4 b ch h w) = y (ix2 (row b ch) (flat0 h w)) :=
  shapeCast_apply y shapeCasts_S8192x3136_S32x256x56x56 (ix4 b ch h w) (ix2 (row b ch) (flat0 h w)) (by
    rw [Shape.rowMajor_val_two, Shape.rowMajor_val_four]
    have hb := b.isLt; have hc := ch.isLt; have hh := h.isLt; have hw := w.isLt
    show (256 * b.val + ch.val) * 3136 + (56 * h.val + w.val) = ((b.val * 256 + ch.val) * 56 + h.val) * 56 + w.val
    omega)

/-- A row of 3136 padded on the right to 3200, read inside the data (low padding 0, no interior padding): the
    operand at the same place. -/
theorem padded_apply_in (y : FVec Ideal S8192x3136 .f32) (v : FVec Ideal S_ .f32) (r : Fin 8192) (k : Fin 3200)
    (k0 : Fin 3136) (hk : k.val = k0.val) :
    pad S8192x3200 ![0, 0] ![0, 64] ![0, 0] y v pads_S8192x3136_S8192x3200_000_0640 h_S_ (ix2 r k) = y (ix2 r k0) :=
  pad_apply_of_inside ![0, 0] ![0, 64] ![0, 0] y v pads_S8192x3136_S8192x3200_000_0640 h_S_ (ix2 r k) (ix2 r k0) (fun a =>
    match a with
    | ⟨0, _⟩ => by show r.val = 0 + r.val * (0 + 1); omega
    | ⟨1, _⟩ => by show k.val = 0 + k0.val * (0 + 1); omega)

/-- The same row read from entry 3136 on: past the operand's last column, so the padding value. -/
theorem padded_apply_out (y : FVec Ideal S8192x3136 .f32) (v : FVec Ideal S_ .f32) (r : Fin 8192) (k : Fin 3200)
    (hk : 3136 ≤ k.val) :
    pad S8192x3200 ![0, 0] ![0, 64] ![0, 0] y v pads_S8192x3136_S8192x3200_000_0640 h_S_ (ix2 r k)
      = v (Shape.Idx.first h_S_) :=
  pad_apply_of_not_inside ![0, 0] ![0, 64] ![0, 0] y v pads_S8192x3136_S8192x3200_000_0640 h_S_ (ix2 r k) (1 : Fin 2) (by
    show ¬(0 ≤ k.val ∧ (k.val - 0) % (0 + 1) = 0 ∧ (k.val - 0) / (0 + 1) < 3136)
    omega)

/-- The padding value: the integer 0 converted to a float is the extended real 0. -/
theorem zero_word_apply (i : S_.Idx) : (sitofp (F := Ideal) .f32 (constantI S_ 32 0#32)) i = (0 : EReal) := by
  show ((((0#32 : BitVec 32).toInt : ℤ) : ℝ) : EReal) = 0
  simp

/-- A row of 3200 cut back to its first 3136 entries, read at an entry: the operand at the same place. -/
theorem cut_apply (u : FVec Ideal S8192x3200 .f32) (r : Fin 8192) (k0 : Fin 3136) (k : Fin 3200) (hk : k.val = k0.val) :
    extractStridedSlice S8192x3136 ![0, 0] u slices_S8192x3200_S8192x3136_0_0 (ix2 r k0) = u (ix2 r k) :=
  slice2_axis1_apply 0 u slices_S8192x3200_S8192x3136_0_0 r k0 k (by omega)

/-! ## The host stretches, over any contents of the buffers -/

section Stretches
variable (X : Valuation τ sig (Elt Ideal))

/-- The padding stretch before the second region writes the padded array from the flattened one and the converted
    integer constant. -/
theorem after_pad1_v31 :
    (StableHlo.after hostOps1_1 X (Proc.devRef .tc main_v31) : FVec Ideal S8192x3200 .f32)
      = pad S8192x3200 ![0, 0] ![0, 64] ![0, 0] (X (Proc.devRef .tc main_v30) : FVec Ideal S8192x3136 .f32)
          (sitofp (F := Ideal) .f32 (X (Proc.devRef .tc main_c_4) : IVec S_ 32))
          pads_S8192x3136_S8192x3200_000_0640 h_S_ := by
  after_results
  rfl

/-- No operation of the long stretch between the regions writes the second argument. -/
theorem hostOps1_not_arg1 :
    ∀ op ∈ (hostOps1 : List (HloOp τ sig (Elt Ideal))), (Proc.devRef .tc main_arg1 : DevRef τ sig) ∉ op.writes :=
  List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide))

/-- That stretch ends by flattening the second argument and writing the integer zero: its first 32 operations, then
    these two. -/
theorem hostOps1_split :
    (hostOps1 : List (HloOp τ sig (Elt Ideal)))
      = List.take 32 hostOps1
          ++ [StableHlo.reshape main_arg1 main_v30 rfl shapeCasts_S32x256x56x56_S8192x3136,
              StableHlo.nullary main_c_4 (constantI S_ 32 0#32)] :=
  (List.take_append_drop 32 _).symm

/-- After it the flattened array is the flattening of the second argument as the stretch found it: the first 32
    operations leave that argument alone. -/
theorem after_hostOps1_v30 :
    (StableHlo.after hostOps1 X (Proc.devRef .tc main_v30) : FVec Ideal S8192x3136 .f32)
      = shapeCast S8192x3136 (X (Proc.devRef .tc main_arg1) : FVec Ideal S32x256x56x56 .f32)
          shapeCasts_S32x256x56x56_S8192x3136 := by
  rw [hostOps1_split, StableHlo.after_append]
  after_results
  rw [StableHlo.after_of_forall_not_mem _ _ fun op h => hostOps1_not_arg1 op (List.mem_of_mem_take h)]
  rfl

/-- and the integer constant is zero. -/
theorem after_hostOps1_c4 :
    (StableHlo.after hostOps1 X (Proc.devRef .tc main_c_4) : IVec S_ 32) = constantI S_ 32 0#32 := by
  rw [hostOps1_split, StableHlo.after_append]
  after_results

/-- The last stretch cuts the second region's result back to 3136 columns and unflattens it. -/
theorem after_hostOps2_v35 :
    (StableHlo.after hostOps2 X (Proc.devRef .tc main_v35) : FVec Ideal S32x256x56x56 .f32)
      = shapeCast S32x256x56x56
          (extractStridedSlice S8192x3136 ![0, 0] (X (Proc.devRef .tc main_v33) : FVec Ideal S8192x3200 .f32)
            slices_S8192x3200_S8192x3136_0_0)
          shapeCasts_S8192x3136_S32x256x56x56 := by
  after_results
  rfl

end Stretches

/-! ## The arrays of the run -/

/-- The first region's input: the first argument flattened, then padded with the converted integer zero. The two
    stretches before the region are a reshape and a constant, then the conversion and the pad. -/
theorem xpad_eq (c : Dev nD) :
    (xpad m ρ c : FVec Ideal S8192x3200 .f32)
      = pad S8192x3200 ![0, 0] ![0, 64] ![0, 0]
          (shapeCast S8192x3136 (xarg m c) shapeCasts_S32x256x56x56_S8192x3136)
          (sitofp (F := Ideal) .f32 (constantI S_ 32 0#32)) pads_S8192x3136_S8192x3200_000_0640 h_S_ := by
  dsimp only [xpad, V2, W2, W1, W0]
  after_results
  rfl

/-- The second argument reaches the long stretch as launched: the first region's arrays are the padded input and the
    pooled sums, and no host operation before it writes an argument. -/
theorem arg1_at_exit0 (c : Dev nD) : (W3 m ρ c (Proc.devRef .tc main_arg1) : FVec Ideal S32x256x56x56 .f32) = zarg m c :=
  calc W3 m ρ c (Proc.devRef .tc main_arg1)
    _ = W2 m ρ c (Proc.devRef .tc main_arg1) := W3_of_ne m ρ c main_arg1 (by decide)
    _ = W1 m ρ c (Proc.devRef .tc main_arg1) :=
        StableHlo.after_of_forall_not_mem (b := Proc.devRef .tc main_arg1) _ _ (List.forall_iff_forall_mem.mp (by
          simp only [hostOps0_1, List.Forall, StableHlo.unary_writes, StableHlo.binary_writes, Finset.mem_singleton]
          repeat' apply And.intro
          all_goals exact StableHlo.devRef_ne_of_ne (by decide)))
    _ = W0 m ρ c (Proc.devRef .tc main_arg1) :=
        StableHlo.after_of_forall_not_mem (b := Proc.devRef .tc main_arg1) _ _ (List.forall_iff_forall_mem.mp (by
          simp only [hostOps0, List.Forall, StableHlo.nullary_writes, StableHlo.reshape_writes, Finset.mem_singleton]
          repeat' apply And.intro
          all_goals exact StableHlo.devRef_ne_of_ne (by decide)))
    _ = zarg m c := rfl

/-- The second region's big input: the second argument flattened, then padded with the converted integer zero. The
    one operation between the pad and the region writes another array. -/
theorem zpad_eq (c : Dev nD) :
    (zpad m ρ c : FVec Ideal S8192x3200 .f32)
      = pad S8192x3200 ![0, 0] ![0, 64] ![0, 0]
          (shapeCast S8192x3136 (zarg m c) shapeCasts_S32x256x56x56_S8192x3136)
          (sitofp (F := Ideal) .f32 (constantI S_ 32 0#32)) pads_S8192x3136_S8192x3200_000_0640 h_S_ :=
  calc (zpad m ρ c : FVec Ideal S8192x3200 .f32)
    _ = StableHlo.after hostOps1_1 (W4 m ρ c) (Proc.devRef .tc main_v31) :=
        StableHlo.after_of_forall_not_mem (b := Proc.devRef .tc main_v31) _ _ (List.forall_iff_forall_mem.mp (by
          simp only [hostOps1_2, List.Forall, StableHlo.reshape_writes, Finset.mem_singleton]
          exact StableHlo.devRef_ne_of_ne (by decide)))
    _ = pad S8192x3200 ![0, 0] ![0, 64] ![0, 0]
          (StableHlo.after hostOps1 (W3 m ρ c) (Proc.devRef .tc main_v30) : FVec Ideal S8192x3136 .f32)
          (sitofp (F := Ideal) .f32 (StableHlo.after hostOps1 (W3 m ρ c) (Proc.devRef .tc main_c_4) : IVec S_ 32))
          pads_S8192x3136_S8192x3200_000_0640 h_S_ := after_pad1_v31 (W4 m ρ c)
    _ = _ := by rw [after_hostOps1_v30, after_hostOps1_c4, arg1_at_exit0]

/-- The program's result: the second region's result array cut back and unflattened. -/
theorem out4_eq (c : Dev nD) :
    (out4 m ρ c : FVec Ideal S32x256x56x56 .f32)
      = shapeCast S32x256x56x56
          (extractStridedSlice S8192x3136 ![0, 0] (out2 m ρ c) slices_S8192x3200_S8192x3136_0_0)
          shapeCasts_S8192x3136_S32x256x56x56 :=
  after_hostOps2_v35 (W7 m ρ c)

/-- The first region's input at a flattened position: x there. -/
theorem padded_x_in (c : Dev nD) (b : Fin 32) (ch : Fin 256) (h w : Fin 56) :
    xpad m ρ c (ix2 (row b ch) (flat h w)) = xarg m c (ix4 b ch h w) :=
  (congrFun (xpad_eq m ρ c) (ix2 (row b ch) (flat h w))).trans
    ((padded_apply_in _ _ (row b ch) (flat h w) (flat0 h w) rfl).trans (flatten_apply (xarg m c) b ch h w))

/-- The first region's input in the padding: zero. -/
theorem padded_x_out (c : Dev nD) (r : Fin 8192) (k : Fin 3200) (hk : 3136 ≤ k.val) :
    xpad m ρ c (ix2 r k) = 0 :=
  (congrFun (xpad_eq m ρ c) (ix2 r k)).trans ((padded_apply_out _ _ r k hk).trans (zero_word_apply _))

/-- The second region's big input at a flattened position: z there. -/
theorem padded_z_in (c : Dev nD) (b : Fin 32) (ch : Fin 256) (h w : Fin 56) :
    zpad m ρ c (ix2 (row b ch) (flat h w)) = zarg m c (ix4 b ch h w) :=
  (congrFun (zpad_eq m ρ c) (ix2 (row b ch) (flat h w))).trans
    ((padded_apply_in _ _ (row b ch) (flat h w) (flat0 h w) rfl).trans (flatten_apply (zarg m c) b ch h w))

/-- The program's result at (b, ch, h, w): the second region's result at the flattened position. -/
theorem unflattened (c : Dev nD) (b : Fin 32) (ch : Fin 256) (h w : Fin 56) :
    out4 m ρ c (ix4 b ch h w) = out2 m ρ c (ix2 (row b ch) (flat h w)) :=
  (congrFun (out4_eq m ρ c) (ix4 b ch h w)).trans
    ((unflatten_apply _ b ch h w).trans (cut_apply (out2 m ρ c) (row b ch) (flat0 h w) (flat h w) rfl))

end Cert.ReferenceIdeal.Relaid

end
-- ==== Proof.PoolRegion.lean ====
/-
  The reference's first kernel region, a row sum accumulated over five column tiles: whatever 8192 × 3200 array it is
  entered with, each row of its 8192 × 1 result ends at the sum of that row's 3200 entries.
-/
import proofs.«148552_g2000302560019453_pallasbulk_905_5_alg».proof.Proof.Gen.ReferenceIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.ReferenceIdeal.Pool

open Cert.ReferenceIdeal Cert.ReferenceIdeal.Gen

variable (V : (c : Dev nD) → (b : Ref sig .tc) → Buf (Elt Ideal) ((c : Thread nD τ).loc b))

/-- The region's input array as it is entered, -/
abbrev inArr (c : Dev nD) : FVec Ideal S8192x3200 .f32 := V c main_v1
/-- and its result array after the last grid point. -/
abbrev outArr (c : Dev nD) : FVec Ideal S8192x1 .f32 := (dat0 (F := Ideal) V c).arrAt 1 cfg0.N

/-! ## What one grid point leaves in the result's staging buffer -/

section AnyValues

variable {F : FTy → Type} [FloatOps F]

theorem offs_zero : (![0, 0] : Fin 2 → Nat) = fun _ => 0 := funext fun a => by fin_cases a <;> rfl

/-- The block of zeros the first column tile of a row tile stores before it accumulates. -/
abbrev zeros : Vec F S256x1 .f32 := broadcast S256x1 (Scalar.ofBits .f32 0x00000000#32)

/-- The lane sums of a 256 × 640 tile, as a 256 × 1 column. -/
abbrev rowsums (x : Vec F S256x640 .f32) : FVec F S256x1 .f32 :=
  shapeCast S256x1 (multiReduction .add [1] S256 x 0x00000000#32 reduces_S256x640_S256 (.inl rfl) rfl) shapeCasts_S256_S256x1

/-- At a later column tile the point adds the tile's lane sums to what the buffer held. -/
theorem later_tile_adds (c : Dev nD) (i : grid0.Coords) (a2 : Memref sig .tc .vmem S256x640 .f32) (h2 : a2.IsWhole)
    (a3 : Memref sig .tc .vmem S256x1 .f32) (h3 : a3.IsWhole) (hc : ¬cond0_0 i) (x : Vec F S256x640 .f32)
    (xo : Vec F S256x1 .f32) :
    out0_B_1 c i a2 h2 a3 h3 hc x xo = addf xo (rowsums x) := by
  unfold out0_B_1
  rw [View.read_writes_eq_canon _ _ _ (cover0_B_1 c i a2 h2 a3 h3 hc x xo)]
  unfold kernelRun0_B
  dsimp only
  sl_unfold_words
  rw [View.canon_unit_zero offs_zero]
  unfold k0_pay2
  simp only [View.readAt_eq_ld, h2.read_unread, h3.read_unread, View.ld_unit_zero (S := S256x640) offs_zero,
    View.ld_unit_zero (S := S256x1) offs_zero, shapeCast_self]

/-- At the first column tile of a row tile the point stores zeros, reads them back and adds the tile's lane sums. -/
theorem first_tile_resets (c : Dev nD) (i : grid0.Coords) (a2 : Memref sig .tc .vmem S256x640 .f32) (h2 : a2.IsWhole)
    (a3 : Memref sig .tc .vmem S256x1 .f32) (h3 : a3.IsWhole) (hc : cond0_0 i) (x : Vec F S256x640 .f32) :
    out0_A_1 c i a2 h2 a3 h3 hc x = addf zeros (rowsums x) := by
  unfold out0_A_1
  rw [View.read_writes_eq_canon _ _ _ (cover0_A_1 c i a2 h2 a3 h3 hc x)]
  unfold kernelRun0_A
  dsimp only
  sl_unfold_words
  rw [View.canon_cons_unit_zero (S := S256x1) offs_zero, View.readCov_unit_zero (S := S256x1) _ offs_zero]
  unfold k0_pay2 k0_pay1
  simp only [View.readAt_eq_ld, h2.read_unread, View.ld_unit_zero (S := S256x640) offs_zero, shapeCast_self]

end AnyValues

/-! ## The same, read at an entry over the extended reals -/

theorem zeros_apply (p : Fin 256) (u : Fin 1) : (zeros : Vec Ideal S256x1 .f32) (ix2 p u) = 0 := by
  show Ideal.ofBits .f32 0x00000000#32 = 0
  exact Ideal.ofBits_zero_f32

/-- Row p of a tile's lane sums is the sum of the tile's row p. -/
theorem rowsums_apply (x : Vec Ideal S256x640 .f32) (p : Fin 256) (u : Fin 1) :
    rowsums x (ix2 p u) = ∑ l : Fin 640, x (ix2 p l) := by
  refine (shapeCast_apply _ shapeCasts_S256_S256x1 (ix2 p u) (ix1 p) ?_).trans ?_
  · rw [Shape.rowMajor_val_one, Shape.rowMajor_val_two]
    show p.val = p.val * 1 + u.val
    have := u.isLt
    omega
  · refine (Ideal.multiReduction_add_single x 0x00000000#32 reduces_S256x640_S256 (.inl rfl) rfl (ix1 p)).trans ?_
    refine Finset.sum_congr rfl fun l _ => congrArg x ?_
    funext a
    apply Fin.ext
    match a with
    | ⟨0, _⟩ => rfl
    | ⟨1, _⟩ => rfl

/-! ## The input tile a grid point reads -/

/-- Point t works row tile t / 5 and column tile t % 5: the block indices of the input window, decided over the grid. -/
theorem tile_of_point : ∀ t : Fin cfg0.N, win0_0.index t (0 : Fin 2) = t.val / 5 ∧ win0_0.index t (1 : Fin 2) = t.val % 5 :=
  (by decide +kernel : ∀ t : Fin grid0.N, win0_0.index t (0 : Fin 2) = t.val / 5 ∧ win0_0.index t (1 : Fin 2) = t.val % 5)

/-- The 256 × 640 tile of the input that point t reads. -/
abbrev tileAt (c : Dev nD) (t : Fin cfg0.N) : Vec Ideal S256x640 .f32 := iblk0 V c 0 t

/-- Entry (p, l) of the tile at point t is entry (256 (t / 5) + p, 640 (t % 5) + l) of the input. -/
theorem tileAt_apply (c : Dev nD) (t : Fin cfg0.N) (p : Fin 256) (l : Fin 640) (r : Fin 8192) (k : Fin 3200)
    (hr : r.val = 256 * (t.val / 5) + p.val) (hk : k.val = 640 * (t.val % 5) + l.val) :
    tileAt V c t (ix2 p l) = inArr V c (ix2 r k) := by
  have hi := tile_of_point t
  unfold tileAt iblk0
  rw [View.read_apply]
  show V c main_v1 _ = V c main_v1 _
  congr 1
  funext a
  apply Fin.ext
  match a with
  | ⟨0, _⟩ => show win0_0.index t 0 * 256 + 1 * p.val = r.val; rw [hi.1, hr]; omega
  | ⟨1, _⟩ => show win0_0.index t 1 * 640 + 1 * l.val = k.val; rw [hi.2, hk]; omega

/-! ## What the staging buffer holds after each point of a row tile -/

/-- Row p of row tile q, -/
abbrev rowIx (q : Fin 32) (p : Fin 256) : Fin 8192 := ⟨256 * q.val + p.val, by have := q.isLt; have := p.isLt; omega⟩
/-- and entry l of column tile s. -/
abbrev colIx (s : Fin 5) (l : Fin 640) : Fin 3200 := ⟨640 * s.val + l.val, by have := s.isLt; have := l.isLt; omega⟩

/-- The sum of row p of the input's tile (q, s). -/
def tileSum (c : Dev nD) (q : Fin 32) (s : Fin 5) (p : Fin 256) : EReal :=
  ∑ l : Fin 640, inArr V c (ix2 (rowIx q p) (colIx s l))

/-- Row p of the lane sums of the tile point t reads is that sum, for t = 5 q + s. -/
theorem rowsums_tileAt (c : Dev nD) (t : Fin cfg0.N) (q : Fin 32) (s : Fin 5) (ht : t.val = 5 * q.val + s.val)
    (p : Fin 256) (u : Fin 1) : rowsums (tileAt V c t) (ix2 p u) = tileSum V c q s p := by
  have := s.isLt
  refine (rowsums_apply (tileAt V c t) p u).trans ?_
  exact Finset.sum_congr rfl fun l _ => tileAt_apply V c t p l (rowIx q p) (colIx s l)
    (by show 256 * q.val + p.val = 256 * (t.val / 5) + p.val; rw [ht]; omega)
    (by show 640 * s.val + l.val = 640 * (t.val % 5) + l.val; rw [ht]; omega)

/-- After the point of column tile j of row tile q, row p of the buffer holds the sum of row p over the column tiles
    0 … j: by induction on j. -/
theorem partial_sums (c : Dev nD) (q : Fin 32) : ∀ (j : ℕ) (hj : j < 5) (h : 5 * q.val + j < cfg0.N) (p : Fin 256) (u : Fin 1),
    outsAt0 V c (5 * q.val + j) h (ix2 p u) = ∑ s : Fin (j + 1), tileSum V c q ⟨s.val, by have := s.isLt; omega⟩ p
  | 0, hj, h, p, u => by
    have hA : (⟨5 * q.val + 0, h⟩ : Fin cfg0.N).val % 5 = 0 := by dsimp only; omega
    refine (congrFun ((outsAt0_A V c ⟨5 * q.val + 0, h⟩ hA).trans
      (first_tile_resets (F := Ideal) c (grid0.coords ⟨5 * q.val + 0, h⟩) (ms0_0 ⟨5 * q.val + 0, h⟩) (hs0_0 ⟨5 * q.val + 0, h⟩)
        (ms0_1 ⟨5 * q.val + 0, h⟩) (hs0_1 ⟨5 * q.val + 0, h⟩) ((hcond0_0 ⟨5 * q.val + 0, h⟩).mpr hA)
        (tileAt V c ⟨5 * q.val + 0, h⟩))) (ix2 p u)).trans ?_
    show (zeros : Vec Ideal S256x1 .f32) (ix2 p u) + rowsums (tileAt V c ⟨5 * q.val + 0, h⟩) (ix2 p u) = _
    rw [zeros_apply, zero_add, rowsums_tileAt V c ⟨5 * q.val + 0, h⟩ q ⟨0, hj⟩ rfl p u, Fin.sum_univ_one]
    rfl
  | j + 1, hj, h, p, u => by
    have hB : ¬(⟨5 * q.val + (j + 1), h⟩ : Fin cfg0.N).val % 5 = 0 := by dsimp only; omega
    refine (congrFun ((outsAt0_B V c ⟨5 * q.val + (j + 1), h⟩ hB).trans
      (later_tile_adds (F := Ideal) c (grid0.coords ⟨5 * q.val + (j + 1), h⟩) (ms0_0 ⟨5 * q.val + (j + 1), h⟩)
        (hs0_0 ⟨5 * q.val + (j + 1), h⟩) (ms0_1 ⟨5 * q.val + (j + 1), h⟩) (hs0_1 ⟨5 * q.val + (j + 1), h⟩)
        (fun hc => hB ((hcond0_0 ⟨5 * q.val + (j + 1), h⟩).mp hc)) (tileAt V c ⟨5 * q.val + (j + 1), h⟩)
        (outsAt0 V c (5 * q.val + j) (Nat.lt_of_succ_lt h)))) (ix2 p u)).trans ?_
    show outsAt0 V c (5 * q.val + j) (Nat.lt_of_succ_lt h) (ix2 p u)
      + rowsums (tileAt V c ⟨5 * q.val + (j + 1), h⟩) (ix2 p u) = _
    rw [partial_sums c q j (Nat.lt_of_succ_lt hj) (Nat.lt_of_succ_lt h) p u,
      rowsums_tileAt V c ⟨5 * q.val + (j + 1), h⟩ q ⟨j + 1, hj⟩ rfl p u]
    exact (Fin.sum_univ_castSucc (fun s : Fin (j + 1 + 1) => tileSum V c q ⟨s.val, by have := s.isLt; omega⟩ p)).symm

/-! ## Five column tiles of 640 entries are the row's 3200 entries -/

/-- A sum over the 3200 entries of a row, taken column tile by column tile. -/
theorem sum_by_tiles {M : Type*} [AddCommMonoid M] (g : Fin 3200 → M) :
    ∑ s : Fin 5, ∑ l : Fin 640, g (colIx s l) = ∑ k : Fin 3200, g k := by
  rw [← Equiv.sum_comp (finProdFinEquiv (m := 5) (n := 640)) g, Fintype.sum_prod_type]
  refine Finset.sum_congr rfl fun s _ => Finset.sum_congr rfl fun l _ => congrArg g (Fin.ext ?_)
  show 640 * s.val + l.val = l.val + 640 * s.val
  omega

/-- The sum of row r of the input. -/
def rowSum (c : Dev nD) (r : Fin 8192) : EReal := ∑ k : Fin 3200, inArr V c (ix2 r k)

/-- The five tile sums of row p of row tile q add up to the sum of that row of the input. -/
theorem tiles_sum (c : Dev nD) (q : Fin 32) (p : Fin 256) :
    ∑ s : Fin 5, tileSum V c q s p = rowSum V c (rowIx q p) :=
  sum_by_tiles fun k => inArr V c (ix2 (rowIx q p) k)

/-! ## From the blocks written back to the result array -/

/-- The result array the region should leave: entry (r, 0) is the sum of row r of the input. -/
def sumsArr (c : Dev nD) : FVec Ideal S8192x1 .f32 := fun i => rowSum V c ⟨(i 0).val, idx2_lt0 i⟩

/-- The result's block index at point t is (t / 5, 0): decided over the grid. -/
theorem out_tile_of_point : ∀ t : Fin cfg0.N, win0_1.index t (0 : Fin 2) = t.val / 5 ∧ win0_1.index t (1 : Fin 2) = 0 :=
  (by decide +kernel : ∀ t : Fin grid0.N, win0_1.index t (0 : Fin 2) = t.val / 5 ∧ win0_1.index t (1 : Fin 2) = 0)

/-- What a point of the last column tile writes back is its block of the row sums. -/
theorem written_back_eq (c : Dev nD) (t : Fin cfg0.N) (hf : (cfg0.win 1).flush t = true) :
    (dat0 (F := Ideal) V c).flushed 1 t = ((cfg0.win 1).blk t).view.read (Elt Ideal) (sumsArr V c) := by
  have hN : cfg0.N = 160 := N_0
  have ht : t.val < 160 := lt_of_lt_of_eq t.isLt hN
  have h4 : t.val % 5 = 4 := (flush0_1 t).mp hf
  have hi := out_tile_of_point t
  show (cfg0.win 1).cut (grid0.coords t) ((dat0 V c).after 1 t) = _
  rw [after0_1]
  funext y
  have hy0 : (y 0).val < 256 := (y 0).isLt
  have hy1 : (y 1).val < 1 := (y 1).isLt
  have hq : t.val / 5 < 32 := by omega
  have e : (cfg0.win 1).xinj (grid0.coords t) y = ix2 (⟨(y 0).val, hy0⟩ : Fin 256) (⟨(y 1).val, hy1⟩ : Fin 1) := by
    funext a
    match a with
    | ⟨0, _⟩ => rfl
    | ⟨1, _⟩ => rfl
  have same : ∀ (n : ℕ) (hn : n < cfg0.N), n = t.val → outsAt0 V c n hn = outsAt0 V c t.val t.isLt :=
    fun n hn e => by subst e; rfl
  refine (congrArg (outsAt0 V c t.val t.isLt) e).trans ?_
  rw [← same (5 * (t.val / 5) + 4) (by omega) (by omega)]
  refine (partial_sums V c ⟨t.val / 5, hq⟩ 4 (by decide) _ ⟨(y 0).val, hy0⟩ ⟨(y 1).val, hy1⟩).trans ?_
  refine (tiles_sum V c ⟨t.val / 5, hq⟩ ⟨(y 0).val, hy0⟩).trans ?_
  show rowSum V c _ = rowSum V c _
  refine congrArg (rowSum V c) (Fin.ext ?_)
  show 256 * (t.val / 5) + (y 0).val = win0_1.index t 0 * 256 + 1 * (y 0).val
  rw [hi.1]
  omega

/-- An entry lies in the block point t writes back when each coordinate lies in the block's range on its axis. -/
theorem mem_written_block (t : Fin cfg0.N) (i : S8192x1.Idx) :
    i ∈ ((cfg0.win 1).blk t).view.set ↔
      ∀ a : Fin 2, win0_1.index t a * S256x1.size a ≤ (i a).val ∧ (i a).val < win0_1.index t a * S256x1.size a + S256x1.size a := by
  show i ∈ ((View.whole main_v2).slice (win0_1.rect t)).set ↔ _
  rw [View.set_slice_whole, Rect.mem_set_unit]
  exact Iff.rfl

/-- Row r lies in the block that the last column tile's point of row tile r / 256 writes back, so after the last grid
    point the result array is the array of row sums. -/
theorem outArr_eq (c : Dev nD) : outArr V c = sumsArr V c :=
  (dat0 (F := Ideal) V c).arrAt_eq_of_cover 1 (sumsArr V c) (written_back_eq V c) fun i => by
    have hN : cfg0.N = 160 := N_0
    have h0 : (i 0 : Nat) < 8192 := (i 0).isLt
    have h1 : (i 1 : Nat) < 1 := (i 1).isLt
    have hi := out_tile_of_point ⟨5 * ((i 0 : Nat) / 256) + 4, by omega⟩
    refine ⟨⟨5 * ((i 0 : Nat) / 256) + 4, by omega⟩, (flush0_1 _).mpr (by dsimp only; omega), ?_⟩
    rw [mem_written_block]
    intro a
    match a with
    | ⟨0, _⟩ =>
      show win0_1.index ⟨5 * ((i 0 : Nat) / 256) + 4, _⟩ 0 * 256 ≤ (i 0 : Nat)
        ∧ (i 0 : Nat) < win0_1.index ⟨5 * ((i 0 : Nat) / 256) + 4, _⟩ 0 * 256 + 256
      rw [hi.1]; dsimp only; omega
    | ⟨1, _⟩ =>
      show win0_1.index ⟨5 * ((i 0 : Nat) / 256) + 4, _⟩ 1 * 1 ≤ (i 1 : Nat)
        ∧ (i 1 : Nat) < win0_1.index ⟨5 * ((i 0 : Nat) / 256) + 4, _⟩ 1 * 1 + 1
      rw [hi.2]; omega

/-- Row r of the region's result: the sum of row r of its input. -/
theorem sums_apply (c : Dev nD) (r : Fin 8192) (u : Fin 1) :
    outArr V c (ix2 r u) = ∑ k : Fin 3200, inArr V c (ix2 r k) :=
  (congrFun (outArr_eq V c) (ix2 r u)).trans rfl

end Cert.ReferenceIdeal.Pool

end
-- ==== Proof.DenseHidden.lean ====
/-
  The reference's first dense layer as the host computes it — the row sums reshaped to 32 × 256 and scaled, the
  product with the transposed weights, the bias broadcast down the rows — read at an index.
-/
import proofs.«148552_g2000302560019453_pallasbulk_905_5_alg».proof.Proof.Gen.ReferenceIdeal
import proofs.«148552_g2000302560019453_pallasbulk_905_5_alg».proof.Proof.Excite
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic
import Idealize.ShloMosaic.Lib.IdealHost

noncomputable section

open Idealize.ShloMosaic Idealize.ShloMosaic.TcCoe Idealize.SL.Sem Idealize.ShloMosaic.ValueIdx
open Idealize.ShloMosaic.Pipeline (Dat)

namespace Cert.ReferenceIdeal.DenseHidden

open Cert.ReferenceIdeal Cert.ReferenceIdeal.Facts₀ Cert.Excite

/-! ## The layout operations, each read at an index -/

/-- The 8192 × 1 column of row sums, flattened and cut into 32 rows of 256: entry (b, c) is row 256·b + c of the
    column, since both reshapes keep the row-major position. -/
theorem rowSums_apply (s : FVec Ideal S8192x1 .f32) (b : Fin 32) (c : Fin 256) :
    shapeCast S32x256 (shapeCast S8192 s shapeCasts_S8192x1_S8192) shapeCasts_S8192_S32x256 (ix2 b c)
      = s (ix2 (row b c) 0) := by
  refine (shapeCast_apply _ _ (ix2 b c) (ix1 (row b c)) ?_).trans ?_
  · rw [Shape.rowMajor_val_one, Shape.rowMajor_val_two]
    show 256 * b.val + c.val = b.val * 256 + c.val
    omega
  · refine shapeCast_apply _ _ (ix1 (row b c)) (ix2 (row b c) 0) ?_
    rw [Shape.rowMajor_val_two, Shape.rowMajor_val_one]
    show (256 * b.val + c.val) * 1 + 0 = 256 * b.val + c.val
    omega

/-- The scalar constant broadcast over the 32 × 256 matrix reads the mean's scale everywhere. -/
theorem scaleSplat_apply (i : S32x256.Idx) :
    broadcastInDim S32x256 ![] bcast_S_S32x256 (constant (F := Ideal) S_ .f32 0x39A72F05#32) i = scale :=
  broadcastInDim_scalar_apply _ _ i

/-- The transposed weights at (c, j) are w1 at (j, c). -/
theorem weightsT_apply (w1 : FVec Ideal S64x256 .f32) (c : Fin 256) (j : Fin 64) :
    transpose S256x64 [1, 0] w1 transposes_S64x256_S256x64_1_0 (ix2 c j) = w1 (ix2 j c) :=
  transpose_ix2_apply w1 _ c j

/-- The bias, made a one-row matrix and then repeated down the 32 rows, reads b1 at the column. -/
theorem biasRows_apply (b1 : FVec Ideal S64 .f32) (b : Fin 32) (j : Fin 64) :
    broadcastInDim S32x64 ![0, 1] bcast_S1x64_S32x64_0_1 (broadcastInDim S1x64 ![1] bcast_S64_S1x64_1 b1) (ix2 b j)
      = b1 (ix1 j) := by
  refine (broadcastInDim_apply _ _ _ (ix2 b j) (ix2 (0 : Fin 1) j) fun a => ?_).trans ?_
  · match a with
    | ⟨0, _⟩ => rfl
    | ⟨1, _⟩ => rfl
  · refine broadcastInDim_apply _ _ _ (ix2 (0 : Fin 1) j) (ix1 j) fun a => ?_
    match a with
    | ⟨0, _⟩ => rfl

/-! ## The product: its operand indices axis by axis, then the sum over the contracted coordinate -/

/-- The left operand's row is the result's row. -/
theorem lhs_row (i : S32x64.Idx) (q : dot_S32x256_S256x64_S32x64_1_0_0_1_n_n.contr.Idx) :
    (dot_S32x256_S256x64_S32x64_1_0_0_1_n_n.lhsIdx i q 0).val = (i 0).val := by
  unfold DotDims.lhsIdx
  rw [dif_neg (show ¬(0 : Fin S32x256.rank) ∈ dot_S32x256_S256x64_S32x64_1_0_0_1_n_n.lhsBatch by decide),
    dif_pos (show (0 : Fin S32x256.rank) ∈ dot_S32x256_S256x64_S32x64_1_0_0_1_n_n.lhsNonContracting by decide)]
  rfl

/-- The left operand's column is the contracted coordinate. -/
theorem lhs_col (i : S32x64.Idx) (q : dot_S32x256_S256x64_S32x64_1_0_0_1_n_n.contr.Idx) :
    (dot_S32x256_S256x64_S32x64_1_0_0_1_n_n.lhsIdx i q 1).val = (q ⟨0, by decide⟩).val :=
  dot_S32x256_S256x64_S32x64_1_0_0_1_n_n.lhsIdx_val_of_single rfl i q

/-- The right operand's row is the contracted coordinate. -/
theorem rhs_row (i : S32x64.Idx) (q : dot_S32x256_S256x64_S32x64_1_0_0_1_n_n.contr.Idx) :
    (dot_S32x256_S256x64_S32x64_1_0_0_1_n_n.rhsIdx i q 0).val = (q ⟨0, by decide⟩).val :=
  dot_S32x256_S256x64_S32x64_1_0_0_1_n_n.rhsIdx_val_of_single rfl i q

/-- The right operand's column is the result's column. -/
theorem rhs_col (i : S32x64.Idx) (q : dot_S32x256_S256x64_S32x64_1_0_0_1_n_n.contr.Idx) :
    (dot_S32x256_S256x64_S32x64_1_0_0_1_n_n.rhsIdx i q 1).val = (i 1).val := by
  unfold DotDims.rhsIdx
  rw [dif_neg (show ¬(1 : Fin S256x64.rank) ∈ dot_S32x256_S256x64_S32x64_1_0_0_1_n_n.rhsBatch by decide),
    dif_pos (show (1 : Fin S256x64.rank) ∈ dot_S32x256_S256x64_S32x64_1_0_0_1_n_n.rhsNonContracting by decide)]
  rfl

/-- The host's product of a 32 × 256 and a 256 × 64 matrix at (b, j): the sum over the 256 contracted coordinates. -/
theorem product_apply (x : FVec Ideal S32x256 .f32) (y : FVec Ideal S256x64 .f32) (b : Fin 32) (j : Fin 64) :
    Host.dotGeneral (F := Ideal) dot_S32x256_S256x64_S32x64_1_0_0_1_n_n none x y (ix2 b j)
      = ∑ c : Fin 256, x (ix2 b c) * y (ix2 c j) := by
  simp only [Host.dotGeneral]
  rw [Ideal.dotGeneral_apply, ← Equiv.sum_comp (contrEquiv1 dot_S32x256_S256x64_S32x64_1_0_0_1_n_n 256 rfl rfl).symm]
  refine Finset.sum_congr rfl fun k _ => ?_
  have hk := contrEquiv1_symm_val dot_S32x256_S256x64_S32x64_1_0_0_1_n_n 256 rfl rfl k
  have el : dot_S32x256_S256x64_S32x64_1_0_0_1_n_n.lhsIdx (ix2 b j) ((contrEquiv1 dot_S32x256_S256x64_S32x64_1_0_0_1_n_n 256 rfl rfl).symm k) = ix2 b k :=
    funext fun a => Fin.ext (by
      match a with
      | ⟨0, _⟩ => exact lhs_row _ _
      | ⟨1, _⟩ => exact (lhs_col _ _).trans hk)
  have er : dot_S32x256_S256x64_S32x64_1_0_0_1_n_n.rhsIdx (ix2 b j) ((contrEquiv1 dot_S32x256_S256x64_S32x64_1_0_0_1_n_n 256 rfl rfl).symm k) = ix2 k j :=
    funext fun a => Fin.ext (by
      match a with
      | ⟨0, _⟩ => exact (rhs_row _ _).trans hk
      | ⟨1, _⟩ => exact rhs_col _ _)
  rw [el, er]

/-- The host's term for the first dense layer, from the 8192 × 1 row sums, w1 and b1. -/
def hiddenTerm (s : FVec Ideal S8192x1 .f32) (w1 : FVec Ideal S64x256 .f32) (b1 : FVec Ideal S64 .f32) :
    FVec Ideal S32x64 .f32 :=
  addf
    (Host.dotGeneral dot_S32x256_S256x64_S32x64_1_0_0_1_n_n none
      (mulf (shapeCast S32x256 (shapeCast S8192 s shapeCasts_S8192x1_S8192) shapeCasts_S8192_S32x256)
        (broadcastInDim S32x256 ![] bcast_S_S32x256 (constant S_ .f32 0x39A72F05#32)))
      (transpose S256x64 [1, 0] w1 transposes_S64x256_S256x64_1_0))
    (broadcastInDim S32x64 ![0, 1] bcast_S1x64_S32x64_0_1 (broadcastInDim S1x64 ![1] bcast_S64_S1x64_1 b1))

/-- At (b, j): the scaled row sums of batch element b against row j of w1, plus b1 at j. -/
theorem hiddenTerm_apply (s : FVec Ideal S8192x1 .f32) (w1 : FVec Ideal S64x256 .f32) (b1 : FVec Ideal S64 .f32)
    (b : Fin 32) (j : Fin 64) :
    hiddenTerm s w1 b1 (ix2 b j) = (∑ c : Fin 256, (s (ix2 (row b c) 0) * scale) * w1 (ix2 j c)) + b1 (ix1 j) := by
  unfold hiddenTerm
  rw [addf_apply, product_apply, biasRows_apply]
  refine congrArg (· + b1 (ix1 j)) (Finset.sum_congr rfl fun c _ => ?_)
  rw [mulf_apply, rowSums_apply, scaleSplat_apply, weightsT_apply]

end Cert.ReferenceIdeal.DenseHidden

end
-- ==== Proof.DenseGate.lean ====
/-
  The reference's second dense layer and its two sigmoids as the host computes them — 1 / (1 + e^(-v)) spelled out with
  negate, exponential, add and divide — read at an index: the sigmoid of the layer over the swish of the first layer.
-/
import proofs.«148552_g2000302560019453_pallasbulk_905_5_alg».proof.Proof.Gen.ReferenceIdeal
import proofs.«148552_g2000302560019453_pallasbulk_905_5_alg».proof.Proof.Excite
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic
import Idealize.ShloMosaic.Lib.IdealHost

noncomputable section

open Idealize.ShloMosaic Idealize.ShloMosaic.TcCoe Idealize.SL.Sem Idealize.ShloMosaic.ValueIdx
open Idealize.ShloMosaic.Pipeline (Dat)

namespace Cert.ReferenceIdeal.DenseGate

open Cert.ReferenceIdeal Cert.ReferenceIdeal.Facts₀ Cert.Excite

/-- The host's sigmoid, 1 / (1 + e^(-v)) with the ones broadcast from the scalar constant, read at an index. -/
theorem sig_apply {s : Shape} (h : S_.BroadcastsInDim s (![] : Fin 0 → Fin s.rank)) (v : FVec Ideal s .f32) (i : s.Idx) :
    Host.divf (F := Ideal) (broadcastInDim s ![] h (constant (F := Ideal) S_ .f32 0x3F800000#32))
        (addf (broadcastInDim s ![] h (constant (F := Ideal) S_ .f32 0x3F800000#32)) (Host.exp (Host.negf v))) i
      = Ideal.logistic (v i) := by
  rw [hostDivf_apply, addf_apply, broadcastInDim_scalar_apply, constant_apply, Ideal.ofBits_one_f32]
  rfl

/-! ## The second layer's product: which operand entries meet at result (b, ch) and contraction position q -/

/-- The left operand's row is the result's row. -/
theorem lhs_row (i : S32x256.Idx) (q : dot_S32x64_S64x256_S32x256_1_0_0_1_n_n.contr.Idx) :
    (dot_S32x64_S64x256_S32x256_1_0_0_1_n_n.lhsIdx i q 0).val = (i 0).val := by
  unfold DotDims.lhsIdx
  rw [dif_neg (show ¬(0 : Fin S32x64.rank) ∈ dot_S32x64_S64x256_S32x256_1_0_0_1_n_n.lhsBatch by decide),
    dif_pos (show (0 : Fin S32x64.rank) ∈ dot_S32x64_S64x256_S32x256_1_0_0_1_n_n.lhsNonContracting by decide)]
  rfl

/-- The left operand's column is the contraction position. -/
theorem lhs_col (i : S32x256.Idx) (q : dot_S32x64_S64x256_S32x256_1_0_0_1_n_n.contr.Idx) :
    (dot_S32x64_S64x256_S32x256_1_0_0_1_n_n.lhsIdx i q 1).val = (q ⟨0, by decide⟩).val :=
  dot_S32x64_S64x256_S32x256_1_0_0_1_n_n.lhsIdx_val_of_single rfl i q

/-- The right operand's row is the contraction position. -/
theorem rhs_row (i : S32x256.Idx) (q : dot_S32x64_S64x256_S32x256_1_0_0_1_n_n.contr.Idx) :
    (dot_S32x64_S64x256_S32x256_1_0_0_1_n_n.rhsIdx i q 0).val = (q ⟨0, by decide⟩).val :=
  dot_S32x64_S64x256_S32x256_1_0_0_1_n_n.rhsIdx_val_of_single rfl i q

/-- The right operand's column is the result's column. -/
theorem rhs_col (i : S32x256.Idx) (q : dot_S32x64_S64x256_S32x256_1_0_0_1_n_n.contr.Idx) :
    (dot_S32x64_S64x256_S32x256_1_0_0_1_n_n.rhsIdx i q 1).val = (i 1).val := by
  unfold DotDims.rhsIdx
  rw [dif_neg (show ¬(1 : Fin S64x256.rank) ∈ dot_S32x64_S64x256_S32x256_1_0_0_1_n_n.rhsBatch by decide),
    dif_pos (show (1 : Fin S64x256.rank) ∈ dot_S32x64_S64x256_S32x256_1_0_0_1_n_n.rhsNonContracting by decide)]
  rfl

/-- The [32,64] × [64,256] product at (b, ch) is the sum over the 64 inner positions. -/
theorem dot_apply (x : FVec Ideal S32x64 .f32) (y : FVec Ideal S64x256 .f32) (b : Fin 32) (ch : Fin 256) :
    Host.dotGeneral (F := Ideal) dot_S32x64_S64x256_S32x256_1_0_0_1_n_n none x y (ix2 b ch)
      = ∑ j : Fin 64, x (ix2 b j) * y (ix2 j ch) := by
  simp only [Host.dotGeneral]
  rw [Ideal.dotGeneral_apply, ← Equiv.sum_comp (contrEquiv1 dot_S32x64_S64x256_S32x256_1_0_0_1_n_n 64 rfl rfl).symm]
  refine Finset.sum_congr rfl fun j _ => ?_
  have hj := contrEquiv1_symm_val dot_S32x64_S64x256_S32x256_1_0_0_1_n_n 64 rfl rfl j
  have el : dot_S32x64_S64x256_S32x256_1_0_0_1_n_n.lhsIdx (ix2 b ch)
      ((contrEquiv1 dot_S32x64_S64x256_S32x256_1_0_0_1_n_n 64 rfl rfl).symm j) = ix2 b j :=
    funext fun a => Fin.ext (by
      match a with
      | ⟨0, _⟩ => exact lhs_row _ _
      | ⟨1, _⟩ => exact (lhs_col _ _).trans hj)
  have er : dot_S32x64_S64x256_S32x256_1_0_0_1_n_n.rhsIdx (ix2 b ch)
      ((contrEquiv1 dot_S32x64_S64x256_S32x256_1_0_0_1_n_n 64 rfl rfl).symm j) = ix2 j ch :=
    funext fun a => Fin.ext (by
      match a with
      | ⟨0, _⟩ => exact (rhs_row _ _).trans hj
      | ⟨1, _⟩ => exact rhs_col _ _)
  rw [el, er]

/-- The bias, broadcast [256] → [1,256] → [32,256], at (b, ch) is the bias at ch. -/
theorem bias_apply (b2 : FVec Ideal S256 .f32) (b : Fin 32) (ch : Fin 256) :
    broadcastInDim S32x256 ![0, 1] bcast_S1x256_S32x256_0_1
        (broadcastInDim S1x256 ![1] bcast_S256_S1x256_1 b2) (ix2 b ch) = b2 (ix1 ch) := by
  rw [broadcastInDim_apply ![0, 1] bcast_S1x256_S32x256_0_1 _ (ix2 b ch) (ix2 (0 : Fin 1) ch)
      (fun a => match a with | ⟨0, _⟩ => rfl | ⟨1, _⟩ => rfl),
    broadcastInDim_apply ![1] bcast_S256_S1x256_1 b2 (ix2 (0 : Fin 1) ch) (ix1 ch)
      (fun a => match a with | ⟨0, _⟩ => rfl)]

/-- The [32,256] array laid out as 8192 rows of one entry: row 256·b + ch holds the entry at (b, ch). -/
theorem rows_apply (x : FVec Ideal S32x256 .f32) (b : Fin 32) (ch : Fin 256) :
    shapeCast S8192x1 x shapeCasts_S32x256_S8192x1 (ix2 (row b ch) 0) = x (ix2 b ch) := by
  refine shapeCast_apply x _ (ix2 (row b ch) 0) (ix2 b ch) ?_
  rw [Shape.rowMajor_val_two, Shape.rowMajor_val_two]
  show b.val * 256 + ch.val = (256 * b.val + ch.val) * 1 + 0
  omega

/-- The host's term from the first layer's 32 × 64 values, w2 and b2, to the 8192 × 1 per-row gates. -/
def gateTerm (hd : FVec Ideal S32x64 .f32) (w2 : FVec Ideal S256x64 .f32) (b2 : FVec Ideal S256 .f32) :
    FVec Ideal S8192x1 .f32 :=
  shapeCast S8192x1
    (Host.divf (broadcastInDim S32x256 ![] bcast_S_S32x256 (constant S_ .f32 0x3F800000#32))
      (addf (broadcastInDim S32x256 ![] bcast_S_S32x256 (constant S_ .f32 0x3F800000#32))
        (Host.exp (Host.negf
          (addf
            (Host.dotGeneral dot_S32x64_S64x256_S32x256_1_0_0_1_n_n none
              (mulf hd
                (Host.divf (broadcastInDim S32x64 ![] bcast_S_S32x64 (constant S_ .f32 0x3F800000#32))
                  (addf (broadcastInDim S32x64 ![] bcast_S_S32x64 (constant S_ .f32 0x3F800000#32))
                    (Host.exp (Host.negf hd)))))
              (transpose S64x256 [1, 0] w2 transposes_S256x64_S64x256_1_0))
            (broadcastInDim S32x256 ![0, 1] bcast_S1x256_S32x256_0_1
              (broadcastInDim S1x256 ![1] bcast_S256_S1x256_1 b2)))))))
    shapeCasts_S32x256_S8192x1

/-- At the row of (b, ch): σ of the second layer at (b, ch), over the swish of the first layer's row b. -/
theorem gateTerm_apply (hd : FVec Ideal S32x64 .f32) (w2 : FVec Ideal S256x64 .f32) (b2 : FVec Ideal S256 .f32)
    (b : Fin 32) (ch : Fin 256) :
    gateTerm hd w2 b2 (ix2 (row b ch) 0)
      = Ideal.logistic ((∑ j : Fin 64, swish (hd (ix2 b j)) * w2 (ix2 ch j)) + b2 (ix1 ch)) := by
  unfold gateTerm
  rw [rows_apply, sig_apply, addf_apply, dot_apply, bias_apply]
  refine congrArg Ideal.logistic (congrArg (· + b2 (ix1 ch)) (Finset.sum_congr rfl fun j _ => ?_))
  rw [mulf_apply, sig_apply, transpose_ix2_apply]
  rfl

end Cert.ReferenceIdeal.DenseGate

end
-- ==== Proof.Dense.lean ====
/-
  The reference's dense layers on the host, between its two kernel regions: from the row sums the first region leaves
  to the per-row gate the second region scales by.
-/
import proofs.«148552_g2000302560019453_pallasbulk_905_5_alg».proof.Proof.Gen.ReferenceIdeal.Frame
import proofs.«148552_g2000302560019453_pallasbulk_905_5_alg».proof.Proof.Excite
import proofs.«148552_g2000302560019453_pallasbulk_905_5_alg».proof.Proof.PoolRegion
import proofs.«148552_g2000302560019453_pallasbulk_905_5_alg».proof.Proof.Relaid
import proofs.«148552_g2000302560019453_pallasbulk_905_5_alg».proof.Proof.DenseHidden
import proofs.«148552_g2000302560019453_pallasbulk_905_5_alg».proof.Proof.DenseGate
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.ReferenceIdeal.Dense

open Cert.ReferenceIdeal Cert.ReferenceIdeal.Gen Cert.Excite

variable (m : (ℓ : Loc nD τ sig) → Buf (Elt Ideal) ℓ) (ρ : Dev nD → PrngReg)

/-- The second region's per-row scales as it is entered with them. -/
abbrev rowScale (c : Dev nD) : FVec Ideal S8192x1 .f32 := V6 m ρ c main_v32

/-- No operation of a host stretch writes the buffer: each operation's one result buffer is another reference. -/
local macro "stretch_leaves " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- The weights and biases reach the first region's exit as launched: the region has no window on them and the two
    stretches before it write none of them. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := by stretch_leaves hostOps0_1
    _ = W0 m ρ c (Proc.devRef .tc main_arg2) := by stretch_leaves hostOps0
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := by stretch_leaves hostOps0_1
    _ = W0 m ρ c (Proc.devRef .tc main_arg3) := by stretch_leaves hostOps0
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := by stretch_leaves hostOps0_1
    _ = W0 m ρ c (Proc.devRef .tc main_arg4) := by stretch_leaves hostOps0
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := by stretch_leaves hostOps0_1
    _ = W0 m ρ c (Proc.devRef .tc main_arg5) := by stretch_leaves hostOps0
    _ = m ((c : Thread nD τ).loc main_arg5) := rfl

/-- The first region's result array at its exit is what the pipeline leaves there. -/
theorem W3_main_v2 (c : Dev nD) : W3 m ρ c (Proc.devRef .tc main_v2) = Pool.outArr (V2 m ρ) c := W3_arr m ρ c 1

set_option maxHeartbeats 2000000 in
/-- They are the host's two dense layers over the first region's row sums and the weights as launched. -/
theorem rowScale_eq (c : Dev nD) :
    rowScale m ρ c
      = DenseGate.gateTerm
          (DenseHidden.hiddenTerm (Pool.outArr (V2 m ρ) c) (m ((c : Thread nD τ).loc main_arg2)) (m ((c : Thread nD τ).loc main_arg3)))
          (m ((c : Thread nD τ).loc main_arg4)) (m ((c : Thread nD τ).loc main_arg5)) := by
  dsimp only [rowScale, V6, W6, W5, W4]
  open StableHlo in after_results_simp
  rw [W3_main_v2, W3_main_arg2, W3_main_arg3, W3_main_arg4, W3_main_arg5]
  generalize Pool.outArr (V2 m ρ) c = s
  generalize m ((c : Thread nD τ).loc main_arg2) = w1
  generalize m ((c : Thread nD τ).loc main_arg3) = b1
  generalize m ((c : Thread nD τ).loc main_arg4) = w2
  generalize m ((c : Thread nD τ).loc main_arg5) = b2
  rfl

/-- The first region's row sum at the row of (b, ch) is the sum of x over the 56 × 56 positions of channel ch of batch
    element b: the row holds those entries at the flattened positions and zero in the padding. -/
theorem rowSum_eq (c : Dev nD) (b : Fin 32) (ch : Fin 256) :
    Pool.outArr (V2 m ρ) c (ix2 (row b ch) 0)
      = ∑ h : Fin 56, ∑ w : Fin 56, Relaid.xarg m c (ix4 b ch h w) := by
  rw [Pool.sums_apply]
  exact sum_padded_row (fun k => Relaid.xpad m ρ c (ix2 (row b ch) k)) (fun h w => Relaid.xarg m c (ix4 b ch h w))
    (fun h w => Relaid.padded_x_in m ρ c b ch h w) (fun k hk => Relaid.padded_x_out m ρ c (row b ch) k hk)

/-- The per-row scale at the row of (b, ch): the gate of channel ch of batch element b. -/
theorem scale_apply (c : Dev nD) (b : Fin 32) (ch : Fin 256) :
    rowScale m ρ c (ix2 (row b ch) 0)
      = gate (m ((c : Thread nD τ).loc main_arg0)) (m ((c : Thread nD τ).loc main_arg2))
          (m ((c : Thread nD τ).loc main_arg3)) (m ((c : Thread nD τ).loc main_arg4))
          (m ((c : Thread nD τ).loc main_arg5)) b ch := by
  rw [rowScale_eq, DenseGate.gateTerm_apply]
  unfold Excite.gate Excite.excite Excite.hidden Excite.pooled
  simp only [DenseHidden.hiddenTerm_apply, rowSum_eq]

end Cert.ReferenceIdeal.Dense

end
-- ==== Proof.ReferenceValue.lean ====
/-
  The reference's result buffer as a function of the launch memory: the gated activations.
-/
import proofs.«148552_g2000302560019453_pallasbulk_905_5_alg».proof.Proof.Gen.ReferenceIdeal.Frame
import proofs.«148552_g2000302560019453_pallasbulk_905_5_alg».proof.Proof.Excite
import proofs.«148552_g2000302560019453_pallasbulk_905_5_alg».proof.Proof.GateRegion
import proofs.«148552_g2000302560019453_pallasbulk_905_5_alg».proof.Proof.Relaid
import proofs.«148552_g2000302560019453_pallasbulk_905_5_alg».proof.Proof.Dense
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.ReferenceIdeal.Gated

open Cert.ReferenceIdeal Cert.ReferenceIdeal.Gen Cert.Excite

variable (m : (ℓ : Loc nD τ sig) → Buf (Elt Ideal) ℓ) (ρ : Dev nD → PrngReg)

/-- What the program's last buffer holds after the last host stretch: at (b, ch, h, w) the second region's result at the
    flattened position, which is the row's scale — the gate — times z there. -/
theorem result_eq (c : Dev nD) :
    W8 m ρ c (Proc.devRef .tc main_v35)
      = result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  funext i
  obtain ⟨b, ch, h, w, rfl⟩ : ∃ (b : Fin 32) (ch : Fin 256) (h w : Fin 56), i = ix4 b ch h w := ⟨i 0, i 1, i 2, i 3, eq_ix4 i⟩
  refine (Relaid.unflattened m ρ c b ch h w).trans ?_
  have e : Relaid.out2 m ρ c = Scale.outArr (V6 m ρ) c := W7_arr m ρ c 2
  rw [e, Scale.gated_apply (V6 m ρ) c (row b ch) (flat h w), result_apply]
  exact congrArg₂ (fun s v : EReal => s * v) (Dense.scale_apply m ρ c b ch) (Relaid.padded_z_in m ρ c b ch h w)

end Cert.ReferenceIdeal.Gated

end
-- ==== Proof.lean ====
/-
  The certificate: a kernel that computes, one batch element per grid point, the squeeze-and-excite gate
  σ(w2 · swish(w1 · mean(x) + b1) + b2) and multiplies z by it, against a reference that computes the same in three
  stages (a tiled row sum over zero-padded rows, the two dense layers on the host with the sigmoid spelled out as
  1 / (1 + e^(-v)), a tiled row-wise scaling). Over the extended reals both results are ONE function of the six
  argument arrays (`Cert.Excite.result`): the padding adds zeros, a sum may be taken in any grouping, and the sigmoid
  is its spelled-out quotient by definition. The three frames are the generated ones; the ideal pass rewrote nothing,
  so the idealization claim is trivial.
-/
import proofs.«148552_g2000302560019453_pallasbulk_905_5_alg».proof.Defs
import proofs.«148552_g2000302560019453_pallasbulk_905_5_alg».proof.Proof.Gen.Kernel
import proofs.«148552_g2000302560019453_pallasbulk_905_5_alg».proof.Proof.Gen.Kernel.Frame
import proofs.«148552_g2000302560019453_pallasbulk_905_5_alg».proof.Proof.Gen.KernelIdeal
import proofs.«148552_g2000302560019453_pallasbulk_905_5_alg».proof.Proof.Gen.KernelIdeal.Frame
import proofs.«148552_g2000302560019453_pallasbulk_905_5_alg».proof.Proof.Gen.ReferenceIdeal
import proofs.«148552_g2000302560019453_pallasbulk_905_5_alg».proof.Proof.Gen.ReferenceIdeal.Frame
import proofs.«148552_g2000302560019453_pallasbulk_905_5_alg».proof.Proof.Gen.Pre_finite_inputs
import proofs.«148552_g2000302560019453_pallasbulk_905_5_alg».proof.Proof.Excite
import proofs.«148552_g2000302560019453_pallasbulk_905_5_alg».proof.Proof.KernelValue
import proofs.«148552_g2000302560019453_pallasbulk_905_5_alg».proof.Proof.ReferenceRun
import proofs.«148552_g2000302560019453_pallasbulk_905_5_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

theorem preserves : Cert.preserves_Kernel_KernelIdeal := trivial

/-- Both idealized programs end with their result buffer at the gated activations of the arguments, which agree. -/
theorem algebraic : Cert.algebraic_KernelIdeal_ReferenceIdeal := by
  intro m ρ m' ρ' _ hagree
  refine ⟨fun c => Cert.Excite.result
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)),
    Cert.KernelIdeal.Gated.run m ρ, ?_⟩
  refine (θ_run Cert.ReferenceIdeal.defs _ _).mono (fun r h c => ?_) (Cert.ReferenceIdeal.Whole.run_all (F := Ideal) m' ρ')
  refine ⟨?_,
    (h c _ (Cert.ReferenceIdeal.Gen.mem_uc Cert.ReferenceIdeal.main_arg0 (by decide))).trans (Cert.ReferenceIdeal.Gen.W8_main_arg0 m' ρ' c),
    (h c _ (Cert.ReferenceIdeal.Gen.mem_uc Cert.ReferenceIdeal.main_arg1 (by decide))).trans (Cert.ReferenceIdeal.Gen.W8_main_arg1 m' ρ' c),
    (h c _ (Cert.ReferenceIdeal.Gen.mem_uc Cert.ReferenceIdeal.main_arg2 (by decide))).trans (Cert.ReferenceIdeal.Gen.W8_main_arg2 m' ρ' c),
    (h c _ (Cert.ReferenceIdeal.Gen.mem_uc Cert.ReferenceIdeal.main_arg3 (by decide))).trans (Cert.ReferenceIdeal.Gen.W8_main_arg3 m' ρ' c),
    (h c _ (Cert.ReferenceIdeal.Gen.mem_uc Cert.ReferenceIdeal.main_arg4 (by decide))).trans (Cert.ReferenceIdeal.Gen.W8_main_arg4 m' ρ' c),
    (h c _ (Cert.ReferenceIdeal.Gen.mem_uc Cert.ReferenceIdeal.main_arg5 (by decide))).trans (Cert.ReferenceIdeal.Gen.W8_main_arg5 m' ρ' c)⟩
  refine ((h c _ (Cert.ReferenceIdeal.Gen.mem_uc Cert.ReferenceIdeal.main_v35 (by decide))).trans
    (Cert.ReferenceIdeal.Gated.result_eq m' ρ' c)).trans ?_
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
